-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x8 : Shape := ⟨2, ![65536, 8]⟩
abbrev S65536x4x8x16x4 : Shape := ⟨5, ![65536, 4, 8, 16, 4]⟩
abbrev S32x8 : Shape := ⟨2, ![32, 8]⟩
abbrev S32 : Shape := ⟨1, ![32]⟩
abbrev S64x32 : Shape := ⟨2, ![64, 32]⟩
abbrev S8x512 : Shape := ⟨2, ![8, 512]⟩
abbrev S8 : Shape := ⟨1, ![8]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x32 : Shape := ⟨2, ![1, 32]⟩
abbrev S4x8x64 : Shape := ⟨3, ![4, 8, 64]⟩
abbrev S4 : Shape := ⟨1, ![4]⟩
abbrev S_ : Shape := ⟨0, ![]⟩

class Facts : Prop where
  bcast_S_S65536x8 : S_.BroadcastsInDim S65536x8 (![] : Fin 0 → Fin S65536x8.rank)
  reducesTo_S65536x8_S_d0_1 : S65536x8.ReducesTo [0, 1] S_
  h_S_ : 0 < S_.numel
  bcast_S_S65536x4x8x16x4 : S_.BroadcastsInDim S65536x4x8x16x4 (![] : Fin 0 → Fin S65536x4x8x16x4.rank)
  reducesTo_S65536x4x8x16x4_S_d0_1_2_3_4 : S65536x4x8x16x4.ReducesTo [0, 1, 2, 3, 4] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S8x512 : S_.BroadcastsInDim S8x512 (![] : Fin 0 → Fin S8x512.rank)
  reducesTo_S8x512_S_d0_1 : S8x512.ReducesTo [0, 1] S_
  bcast_S_S8 : S_.BroadcastsInDim S8 (![] : Fin 0 → Fin S8.rank)
  reducesTo_S8_S_d0 : S8.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S1x32 : S_.BroadcastsInDim S1x32 (![] : Fin 0 → Fin S1x32.rank)
  reducesTo_S1x32_S_d0_1 : S1x32.ReducesTo [0, 1] S_
  bcast_S_S4x8x64 : S_.BroadcastsInDim S4x8x64 (![] : Fin 0 → Fin S4x8x64.rank)
  reducesTo_S4x8x64_S_d0_1_2 : S4x8x64.ReducesTo [0, 1, 2] S_
  bcast_S_S4 : S_.BroadcastsInDim S4 (![] : Fin 0 → Fin S4.rank)
  reducesTo_S4_S_d0 : S4.ReducesTo [0] S_

variable [Facts]

def fn_part5 {F : FTy → Type} [FloatOps F] (main_arg18 : FVec F S4x8x64 .f32) (main_arg19 : FVec F S4 .f32) (main_v83 : IVec S_ 1) (main_v84 : FVec F S4x8x64 .f32) (main_cst_32 : FVec F S_ .f32) : IVec S_ 1 :=
  let main_v85 : FVec F S4x8x64 .f32 := broadcastInDim S4x8x64 ![] bcast_S_S4x8x64 main_cst_32
  let main_v86 : IVec S4x8x64 1 := cmpf .olt main_v84 main_v85
  let main_c_33 : IVec S_ 1 := constantI S_ 1 1#1
  let main_v87 : IVec S_ 1 := (fun x v => Host.reduce IntOp.andi x v reducesTo_S4x8x64_S_d0_1_2 h_S_) main_v86 main_c_33
  let main_v88 : IVec S_ 1 := andi main_v83 main_v87
  let main_v89 : FVec F S4x8x64 .f32 := Host.absf main_arg18
  let main_cst_34 : FVec F S_ .f32 := constant S_ .f32 0x7F800000#32
  let main_v90 : FVec F S4x8x64 .f32 := broadcastInDim S4x8x64 ![] bcast_S_S4x8x64 main_cst_34
  let main_v91 : IVec S4x8x64 1 := cmpf .olt main_v89 main_v90
  let main_c_35 : IVec S_ 1 := constantI S_ 1 1#1
  let main_v92 : IVec S_ 1 := (fun x v => Host.reduce IntOp.andi x v reducesTo_S4x8x64_S_d0_1_2 h_S_) main_v91 main_c_35
  let main_v93 : IVec S_ 1 := andi main_v88 main_v92
  let main_v94 : FVec F S4 .f32 := Host.absf main_arg19
  let main_cst_36 : FVec F S_ .f32 := constant S_ .f32 0x7F800000#32
  let main_v95 : FVec F S4 .f32 := broadcastInDim S4 ![] bcast_S_S4 main_cst_36
  let main_v96 : IVec S4 1 := cmpf .olt main_v94 main_v95
  let main_c_37 : IVec S_ 1 := constantI S_ 1 1#1
  let main_v97 : IVec S_ 1 := (fun x v => Host.reduce IntOp.andi x v reducesTo_S4_S_d0 h_S_) main_v96 main_c_37
  let main_v98 : IVec S_ 1 := andi main_v93 main_v97
  main_v98

def fn_part4 {F : FTy → Type} [FloatOps F] (main_arg14 : FVec F S1 .f32) (main_arg15 : FVec F S1x32 .f32) (main_arg16 : FVec F S1 .f32) (main_arg17 : FVec F S4x8x64 .f32) (main_arg18 : FVec F S4x8x64 .f32) (main_arg19 : FVec F S4 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1x32 .f32 := Host.absf main_arg15
  let main_cst_28 : FVec F S_ .f32 := constant S_ .f32 0x7F800000#32
  let main_v75 : FVec F S1x32 .f32 := broadcastInDim S1x32 ![] bcast_S_S1x32 main_cst_28
  let main_v76 : IVec S1x32 1 := cmpf .olt main_v74 main_v75
  let main_c_29 : IVec S_ 1 := constantI S_ 1 1#1
  let main_v77 : IVec S_ 1 := (fun x v => Host.reduce IntOp.andi x v reducesTo_S1x32_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S4x8x64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S1x64 .f32) (main_arg12 : FVec F S1 .f32) (main_arg13 : FVec F S1x32 .f32) (main_arg14 : FVec F S1 .f32) (main_arg15 : FVec F S1x32 .f32) (main_arg16 : FVec F S1 .f32) (main_arg17 : FVec F S4x8x64 .f32) (main_arg18 : FVec F S4x8x64 .f32) (main_arg19 : FVec F S4 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x32 .f32 := Host.absf main_arg13
  let main_cst_24 : FVec F S_ .f32 := constant S_ .f32 0x7F800000#32
  let main_v65 : FVec F S1x32 .f32 := broadcastInDim S1x32 ![] bcast_S_S1x32 main_cst_24
  let main_v66 : IVec S1x32 1 := cmpf .olt main_v64 main_v65
  let main_c_25 : IVec S_ 1 := constantI S_ 1 1#1
  let main_v67 : IVec S_ 1 := (fun x v => Host.reduce IntOp.andi x v reducesTo_S1x32_S_d0_1 h_S_) main_v66 main_c_25
  fn_part4 (F := F) main_arg14 main_arg15 main_arg16 main_arg17 main_arg18 main_arg19 main_v63 main_v67

def fn_part2 {F : FTy → Type} [FloatOps F] (main_arg7 : FVec F S64x64 .f32) (main_arg8 : FVec F S64 .f32) (main_arg9 : FVec F S1x64 .f32) (main_arg10 : FVec F S1 .f32) (main_arg11 : FVec F S1x64 .f32) (main_arg12 : FVec F S1 .f32) (main_arg13 : FVec F S1x32 .f32) (main_arg14 : FVec F S1 .f32) (main_arg15 : FVec F S1x32 .f32) (main_arg16 : FVec F S1 .f32) (main_arg17 : FVec F S4x8x64 .f32) (main_arg18 : FVec F S4x8x64 .f32) (main_arg19 : FVec F S4 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S64x32 .f32) (main_arg5 : FVec F S8x512 .f32) (main_arg6 : FVec F S8 .f32) (main_arg7 : FVec F S64x64 .f32) (main_arg8 : FVec F S64 .f32) (main_arg9 : FVec F S1x64 .f32) (main_arg10 : FVec F S1 .f32) (main_arg11 : FVec F S1x64 .f32) (main_arg12 : FVec F S1 .f32) (main_arg13 : FVec F S1x32 .f32) (main_arg14 : FVec F S1 .f32) (main_arg15 : FVec F S1x32 .f32) (main_arg16 : FVec F S1 .f32) (main_arg17 : FVec F S4x8x64 .f32) (main_arg18 : FVec F S4x8x64 .f32) (main_arg19 : FVec F S4 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S8x512 .f32 := Host.absf main_arg5
  let main_cst_8 : FVec F S_ .f32 := constant S_ .f32 0x7F800000#32
  let main_v25 : FVec F S8x512 .f32 := broadcastInDim S8x512 ![] bcast_S_S8x512 main_cst_8
  let main_v26 : IVec S8x512 1 := cmpf .olt main_v24 main_v25
  let main_c_9 : IVec S_ 1 := constantI S_ 1 1#1
  let main_v27 : IVec S_ 1 := (fun x v => Host.reduce IntOp.andi x v reducesTo_S8x512_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S65536x8 .f32) (main_arg1 : FVec F S65536x4x8x16x4 .f32) (main_arg2 : FVec F S32x8 .f32) (main_arg3 : FVec F S32 .f32) (main_arg4 : FVec F S64x32 .f32) (main_arg5 : FVec F S8x512 .f32) (main_arg6 : FVec F S8 .f32) (main_arg7 : FVec F S64x64 .f32) (main_arg8 : FVec F S64 .f32) (main_arg9 : FVec F S1x64 .f32) (main_arg10 : FVec F S1 .f32) (main_arg11 : FVec F S1x64 .f32) (main_arg12 : FVec F S1 .f32) (main_arg13 : FVec F S1x32 .f32) (main_arg14 : FVec F S1 .f32) (main_arg15 : FVec F S1x32 .f32) (main_arg16 : FVec F S1 .f32) (main_arg17 : FVec F S4x8x64 .f32) (main_arg18 : FVec F S4x8x64 .f32) (main_arg19 : FVec F S4 .f32) : IVec S_ 1 :=
  let main_v0 : FVec F S65536x8 .f32 := Host.absf main_arg0
  let main_cst : FVec F S_ .f32 := constant S_ .f32 0x7F800000#32
  let main_v1 : FVec F S65536x8 .f32 := broadcastInDim S65536x8 ![] bcast_S_S65536x8 main_cst
  let main_v2 : IVec S65536x8 1 := cmpf .olt main_v0 main_v1
  let main_c : IVec S_ 1 := constantI S_ 1 1#1
  let main_v3 : IVec S_ 1 := (fun x v => Host.reduce IntOp.andi x v reducesTo_S65536x8_S_d0_1 h_S_) main_v2 main_c
  let main_v4 : FVec F S65536x4x8x16x4 .f32 := Host.absf main_arg1
  let main_cst_0 : FVec F S_ .f32 := constant S_ .f32 0x7F800000#32
  let main_v5 : FVec F S65536x4x8x16x4 .f32 := broadcastInDim S65536x4x8x16x4 ![] bcast_S_S65536x4x8x16x4 main_cst_0
  let main_v6 : IVec S65536x4x8x16x4 1 := cmpf .olt main_v4 main_v5
  let main_c_1 : IVec S_ 1 := constantI S_ 1 1#1
  let main_v7 : IVec S_ 1 := (fun x v => Host.reduce IntOp.andi x v reducesTo_S65536x4x8x16x4_S_d0_1_2_3_4 h_S_) main_v6 main_c_1
  let main_v8 : IVec S_ 1 := andi main_v3 main_v7
  let main_v9 : FVec F S32x8 .f32 := Host.absf main_arg2
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  let main_c_3 : IVec S_ 1 := constantI S_ 1 1#1
  let main_v12 : IVec S_ 1 := (fun x v => Host.reduce IntOp.andi x v reducesTo_S32x8_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S65536x8 : Shape := ⟨2, ![65536, 8]⟩
abbrev S65536x4x8x16x4 : Shape := ⟨5, ![65536, 4, 8, 16, 4]⟩
abbrev S32x8 : Shape := ⟨2, ![32, 8]⟩
abbrev S32 : Shape := ⟨1, ![32]⟩
abbrev S64x32 : Shape := ⟨2, ![64, 32]⟩
abbrev S8x512 : Shape := ⟨2, ![8, 512]⟩
abbrev S8 : Shape := ⟨1, ![8]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x32 : Shape := ⟨2, ![1, 32]⟩
abbrev S4x8x64 : Shape := ⟨3, ![4, 8, 64]⟩
abbrev S4 : Shape := ⟨1, ![4]⟩
abbrev S65536x4x8x64 : Shape := ⟨4, ![65536, 4, 8, 64]⟩
abbrev S_ : Shape := ⟨0, ![]⟩
abbrev S32x64 : Shape := ⟨2, ![32, 64]⟩
abbrev S1024x8 : Shape := ⟨2, ![1024, 8]⟩
abbrev S1024x4x8x64 : Shape := ⟨4, ![1024, 4, 8, 64]⟩
abbrev S8x32 : Shape := ⟨2, ![8, 32]⟩
abbrev S1024x32 : Shape := ⟨2, ![1024, 32]⟩
abbrev S32x1 : Shape := ⟨2, ![32, 1]⟩
abbrev S1024x1 : Shape := ⟨2, ![1024, 1]⟩
abbrev S1x1 : Shape := ⟨2, ![1, 1]⟩
abbrev S1024x64 : Shape := ⟨2, ![1024, 64]⟩
abbrev S64x1 : Shape := ⟨2, ![64, 1]⟩
abbrev S1024x4x8 : Shape := ⟨3, ![1024, 4, 8]⟩
abbrev S1x4x1 : Shape := ⟨3, ![1, 4, 1]⟩
abbrev S1024x1x1 : Shape := ⟨3, ![1024, 1, 1]⟩
abbrev S1x4x8x64 : Shape := ⟨4, ![1, 4, 8, 64]⟩
abbrev S1024x8x64 : Shape := ⟨3, ![1024, 8, 64]⟩
abbrev S1024x1x64 : Shape := ⟨3, ![1024, 1, 64]⟩
abbrev S1024x8x1 : Shape := ⟨3, ![1024, 8, 1]⟩
abbrev S1024x512 : Shape := ⟨2, ![1024, 512]⟩
abbrev S512x8 : Shape := ⟨2, ![512, 8]⟩
abbrev S1x8 : Shape := ⟨2, ![1, 8]⟩

abbrev nBuf : Space → Nat
  | .hbm => 31
  | .vmem => 24
  | .smem => 0
  | _ => 0

abbrev bufTy : (tb : Table) → Fin (tcTables nBuf tb) → BufTy
  | .hbm, ⟨0, _⟩ => ⟨S65536x8, .f32⟩
  | .hbm, ⟨1, _⟩ => ⟨S65536x4x8x16x4, .f32⟩
  | .hbm, ⟨2, _⟩ => ⟨S32x8, .f32⟩
  | .hbm, ⟨3, _⟩ => ⟨S32, .f32⟩
  | .hbm, ⟨4, _⟩ => ⟨S64x32, .f32⟩
  | .hbm, ⟨5, _⟩ => ⟨S8x512, .f32⟩
  | .hbm, ⟨6, _⟩ => ⟨S8, .f32⟩
  | .hbm, ⟨7, _⟩ => ⟨S64x64, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S1x64, .f32⟩
  | .hbm, ⟨12, _⟩ => ⟨S1, .f32⟩
  | .hbm, ⟨13, _⟩ => ⟨S1x32, .f32⟩
  | .hbm, ⟨14, _⟩ => ⟨S1, .f32⟩
  | .hbm, ⟨15, _⟩ => ⟨S1x32, .f32⟩
  | .hbm, ⟨16, _⟩ => ⟨S1, .f32⟩
  | .hbm, ⟨17, _⟩ => ⟨S4x8x64, .f32⟩
  | .hbm, ⟨18, _⟩ => ⟨S4x8x64, .f32⟩
  | .hbm, ⟨19, _⟩ => ⟨S4, .f32⟩
  | .hbm, ⟨20, _⟩ => ⟨S65536x4x8x64, .f32⟩
  | .hbm, ⟨21, _⟩ => ⟨S4x8x64, .f32⟩
  | .hbm, ⟨22, _⟩ => ⟨S4x8x64, .f32⟩
  | .hbm, ⟨23, _⟩ => ⟨S_, .f32⟩
  | .hbm, ⟨24, _⟩ => ⟨S4x8x64, .f32⟩
  | .hbm, ⟨25, _⟩ => ⟨S4x8x64, .f32⟩
  | .hbm, ⟨26, _⟩ => ⟨S_, .f32⟩
  | .hbm, ⟨27, _⟩ => ⟨S4x8x64, .f32⟩
  | .hbm, ⟨28, _⟩ => ⟨S4x8x64, .f32⟩
  | .hbm, ⟨29, _⟩ => ⟨S32x64, .f32⟩
  | .hbm, ⟨30, _⟩ => ⟨S65536x8, .f32⟩
  | .local _ .vmem, ⟨0, _⟩ => ⟨S1024x8, .f32⟩
  | .local _ .vmem, ⟨1, _⟩ => ⟨S1024x8, .f32⟩
  | .local _ .vmem, ⟨2, _⟩ => ⟨S1024x4x8x64, .f32⟩
  | .local _ .vmem, ⟨3, _⟩ => ⟨S1024x4x8x64, .f32⟩
  | .local _ .vmem, ⟨4, _⟩ => ⟨S32x8, .f32⟩
  | .local _ .vmem, ⟨5, _⟩ => ⟨S32, .f32⟩
  | .local _ .vmem, ⟨6, _⟩ => ⟨S64x32, .f32⟩
  | .local _ .vmem, ⟨7, _⟩ => ⟨S8x512, .f32⟩
  | .local _ .vmem, ⟨8, _⟩ => ⟨S8, .f32⟩
  | .local _ .vmem, ⟨9, _⟩ => ⟨S64x64, .f32⟩
  | .local _ .vmem, ⟨10, _⟩ => ⟨S64, .f32⟩
  | .local _ .vmem, ⟨11, _⟩ => ⟨S1x64, .f32⟩
  | .local _ .vmem, ⟨12, _⟩ => ⟨S1, .f32⟩
  | .local _ .vmem, ⟨13, _⟩ => ⟨S1x64, .f32⟩
  | .local _ .vmem, ⟨14, _⟩ => ⟨S1, .f32⟩
  | .local _ .vmem, ⟨15, _⟩ => ⟨S1x32, .f32⟩
  | .local _ .vmem, ⟨16, _⟩ => ⟨S1, .f32⟩
  | .local _ .vmem, ⟨17, _⟩ => ⟨S1x32, .f32⟩
  | .local _ .vmem, ⟨18, _⟩ => ⟨S1, .f32⟩
  | .local _ .vmem, ⟨19, _⟩ => ⟨S4x8x64, .f32⟩
  | .local _ .vmem, ⟨20, _⟩ => ⟨S32x64, .f32⟩
  | .local _ .vmem, ⟨21, _⟩ => ⟨S4, .f32⟩
  | .local _ .vmem, ⟨22, _⟩ => ⟨S1024x8, .f32⟩
  | .local _ .vmem, ⟨23, _⟩ => ⟨S1024x8, .f32⟩
  | _, _ => ⟨S65536x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x8x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x8 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S65536x4x8x16x4_S65536x4x8x64 : S65536x4x8x16x4.ShapeCasts S65536x4x8x64
  bcast_S_S4x8x64 : S_.BroadcastsInDim S4x8x64 (![] : Fin 0 → Fin S4x8x64.rank)
  shapeCasts_S4x8x64_S32x64 : S4x8x64.ShapeCasts S32x64
  inb_S1024x8_S1024x8_0_0 : ∀ a, (![0, 0] : Fin 2 → Nat) a + S1024x8.size a ≤ S1024x8.size a
  h_S1024x8 : 0 < S1024x8.numel
  bitsLt_bf16_f32 : FTy.bits .bf16 < FTy.bits .f32
  inb_S32x8_S32x8_0_0 : ∀ a, (![0, 0] : Fin 2 → Nat) a + S32x8.size a ≤ S32x8.size a
  h_S32x8 : 0 < S32x8.numel
  inb_S32_S32_0 : ∀ a, (![0] : Fin 1 → Nat) a + S32.size a ≤ S32.size a
  h_S32 : 0 < S32.numel
  transposes_S32x8_p1_0_S8x32 : S32x8.Transposes [1, 0] S8x32
  shapeCasts_S32_S1x32 : S32.ShapeCasts S1x32
  broadcasts_S1x32_S1024x32 : S1x32.Broadcasts S1024x32
  inb_S1x32_S1x32_0_0 : ∀ a, (![0, 0] : Fin 2 → Nat) a + S1x32.size a ≤ S1x32.size a
  h_S1x32 : 0 < S1x32.numel
  inb_S1_S1_0 : ∀ a, (![0] : Fin 1 → Nat) a + S1.size a ≤ S1.size a
  h_S1 : 0 < S1.numel
  transposes_S1x32_p1_0_S32x1 : S1x32.Transposes [1, 0] S32x1
  shapeCasts_S1_S1x1 : S1.ShapeCasts S1x1
  broadcasts_S1x1_S1024x1 : S1x1.Broadcasts S1024x1
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  transposes_S64x64_p1_0_S64x64 : S64x64.Transposes [1, 0] S64x64
  shapeCasts_S64_S1x64 : S64.ShapeCasts S1x64
  broadcasts_S1x64_S1024x64 : S1x64.Broadcasts S1024x64
  inb_S1x64_S1x64_0_0 : ∀ a, (![0, 0] : Fin 2 → Nat) a + S1x64.size a ≤ S1x64.size a
  h_S1x64 : 0 < S1x64.numel
  transposes_S1x64_p1_0_S64x1 : S1x64.Transposes [1, 0] S64x1
  inb_S32x64_S32x64_0_0 : ∀ a, (![0, 0] : Fin 2 → Nat) a + S32x64.size a ≤ S32x64.size a
  h_S32x64 : 0 < S32x64.numel
  shapeCasts_S32x64_S32x64 : S32x64.ShapeCasts S32x64
  transposes_S32x64_p1_0_S64x32 : S32x64.Transposes [1, 0] S64x32
  shapeCasts_S1024x32_S1024x4x8 : S1024x32.ShapeCasts S1024x4x8
  inb_S4_S4_0 : ∀ a, (![0] : Fin 1 → Nat) a + S4.size a ≤ S4.size a
  h_S4 : 0 < S4.numel
  shapeCasts_S4_S1x4x1 : S4.ShapeCasts S1x4x1
  broadcasts_S1x4x1_S1024x4x8 : S1x4x1.Broadcasts S1024x4x8
  shapeCasts_S1024x1_S1024x1x1 : S1024x1.ShapeCasts S1024x1x1
  broadcasts_S1024x1x1_S1024x4x8 : S1024x1x1.Broadcasts S1024x4x8
  reduces_S1024x4x8_S1024x8 : S1024x4x8.Reduces [1] S1024x8
  inb_S1024x4x8x64_S1024x4x8x64_0_0_0_0 : ∀ a, (![0, 0, 0, 0] : Fin 4 → Nat) a + S1024x4x8x64.size a ≤ S1024x4x8x64.size a
  h_S1024x4x8x64 : 0 < S1024x4x8x64.numel
  shapeCasts_S1024x4x8x64_S1024x4x8x64 : S1024x4x8x64.ShapeCasts S1024x4x8x64
  inb_S4x8x64_S4x8x64_0_0_0 : ∀ a, (![0, 0, 0] : Fin 3 → Nat) a + S4x8x64.size a ≤ S4x8x64.size a
  h_S4x8x64 : 0 < S4x8x64.numel
  shapeCasts_S4x8x64_S4x8x64 : S4x8x64.ShapeCasts S4x8x64
  shapeCasts_S4x8x64_S1x4x8x64 : S4x8x64.ShapeCasts S1x4x8x64
  broadcasts_S1x4x8x64_S1024x4x8x64 : S1x4x8x64.Broadcasts S1024x4x8x64
  reduces_S1024x4x8x64_S1024x8x64 : S1024x4x8x64.Reduces [1] S1024x8x64
  broadcasts_S1024x1_S1024x64 : S1024x1.Broadcasts S1024x64
  shapeCasts_S1024x64_S1024x1x64 : S1024x64.ShapeCasts S1024x1x64
  shapeCasts_S1024x8_S1024x8x1 : S1024x8.ShapeCasts S1024x8x1
  broadcasts_S1024x1x64_S1024x8x64 : S1024x1x64.Broadcasts S1024x8x64
  broadcasts_S1024x8x1_S1024x8x64 : S1024x8x1.Broadcasts S1024x8x64
  shapeCasts_S1024x8x64_S1024x512 : S1024x8x64.ShapeCasts S1024x512
  inb_S8x512_S8x512_0_0 : ∀ a, (![0, 0] : Fin 2 → Nat) a + S8x512.size a ≤ S8x512.size a
  h_S8x512 : 0 < S8x512.numel
  inb_S8_S8_0 : ∀ a, (![0] : Fin 1 → Nat) a + S8.size a ≤ S8.size a
  h_S8 : 0 < S8.numel
  transposes_S8x512_p1_0_S512x8 : S8x512.Transposes [1, 0] S512x8
  shapeCasts_S8_S1x8 : S8.ShapeCasts S1x8
  broadcasts_S1x8_S1024x8 : S1x8.Broadcasts S1024x8
  dot_S1024x8_S8x32_S1024x32_1_0_0_1_n_n_wf : DotDims.WF S1024x8 S8x32 S1024x32 [1] [0] [0] [1] [] []
  dot_S1024x32_S32x1_S1024x1_1_0_0_1_n_n_wf : DotDims.WF S1024x32 S32x1 S1024x1 [1] [0] [0] [1] [] []
  dot_S1024x32_S32x64_S1024x64_1_0_0_1_n_n_wf : DotDims.WF S1024x32 S32x64 S1024x64 [1] [0] [0] [1] [] []
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  dot_S1024x64_S64x32_S1024x32_1_0_0_1_n_n_wf : DotDims.WF S1024x64 S64x32 S1024x32 [1] [0] [0] [1] [] []
  dot_S1024x512_S512x8_S1024x8_1_0_0_1_n_n_wf : DotDims.WF S1024x512 S512x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S65536x8.size a
  hwx0_0 : ∀ i : grid0.Coords, EltTy.bits .f32 = 32 ∨ (Rect.block (s := S65536x8) S1024x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4x8x64.size a ≤ S65536x4x8x64.size a
  hwx0_1 : ∀ i : grid0.Coords, EltTy.bits .f32 = 32 ∨ (Rect.block (s := S65536x4x8x64) S1024x4x8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x8.size a ≤ S32x8.size a
  hwx0_2 : ∀ i : grid0.Coords, EltTy.bits .f32 = 32 ∨ (Rect.block (s := S32x8) S32x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .f32 = 32 ∨ (Rect.block (s := S8x512) S8x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x32.size a ≤ S1x32.size a
  hwx0_15 : ∀ i : grid0.Coords, EltTy.bits .f32 = 32 ∨ (Rect.block (s := S1x32) S1x32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S4x8x64.size a ≤ S4x8x64.size a
  hwx0_17 : ∀ i : grid0.Coords, EltTy.bits .f32 = 32 ∨ (Rect.block (s := S4x8x64) S4x8x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S32x64.size a ≤ S32x64.size a
  hwx0_18 : ∀ i : grid0.Coords, EltTy.bits .f32 = 32 ∨ (Rect.block (s := S32x64) S32x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S4.size a ≤ S4.size a
  hwx0_19 : ∀ i : grid0.Coords, EltTy.bits .f32 = 32 ∨ (Rect.block (s := S4) S4.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x8.size a ≤ S65536x8.size a
  hwx0_20 : ∀ i : grid0.Coords, EltTy.bits .f32 = 32 ∨ (Rect.block (s := S65536x8) S1024x8.size (cc0_transform_20 i) (hinb0_20 i)).WholeWords (EltTy.packing .f32)

variable [Facts₀]

def dot_S1024x8_S8x32_S1024x32_1_0_0_1_n_n : DotDims S1024x8 S8x32 S1024x32 where
  lhsContracting := [1]
  rhsContracting := [0]
  lhsNonContracting := [0]
  rhsNonContracting := [1]
  lhsBatch := []
  rhsBatch := []
  wf := dot_S1024x8_S8x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x512_S512x8_S1024x8_1_0_0_1_n_n : DotDims S1024x512 S512x8 S1024x8 where
  lhsContracting := [1]
  rhsContracting := [0]
  lhsNonContracting := [0]
  rhsNonContracting := [1]
  lhsBatch := []
  rhsBatch := []
  wf := dot_S1024x512_S512x8_S1024x8_1_0_0_1_n_n_wf

abbrev win0_0 : Pipeline.Window sig grid0 :=
  Pipeline.Window.ofSpec (Memref.whole main_arg0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4x8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v6) S4x8x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v7) S32x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S4.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v8) S1024x8.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S65536x8 : Shape := ⟨2, ![65536, 8]⟩
abbrev S65536x4x8x16x4 : Shape := ⟨5, ![65536, 4, 8, 16, 4]⟩
abbrev S32x8 : Shape := ⟨2, ![32, 8]⟩
abbrev S32 : Shape := ⟨1, ![32]⟩
abbrev S64x32 : Shape := ⟨2, ![64, 32]⟩
abbrev S8x512 : Shape := ⟨2, ![8, 512]⟩
abbrev S8 : Shape := ⟨1, ![8]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x32 : Shape := ⟨2, ![1, 32]⟩
abbrev S4x8x64 : Shape := ⟨3, ![4, 8, 64]⟩
abbrev S4 : Shape := ⟨1, ![4]⟩
abbrev S8x32 : Shape := ⟨2, ![8, 32]⟩
abbrev S65536x32 : Shape := ⟨2, ![65536, 32]⟩
abbrev S32x1 : Shape := ⟨2, ![32, 1]⟩
abbrev S65536x1 : Shape := ⟨2, ![65536, 1]⟩
abbrev S1x1 : Shape := ⟨2, ![1, 1]⟩
abbrev S_ : Shape := ⟨0, ![]⟩
abbrev S32x64 : Shape := ⟨2, ![32, 64]⟩
abbrev S65536x64 : Shape := ⟨2, ![65536, 64]⟩
abbrev S64x1 : Shape := ⟨2, ![64, 1]⟩
abbrev S65536x4x8 : Shape := ⟨3, ![65536, 4, 8]⟩
abbrev S4x1 : Shape := ⟨2, ![4, 1]⟩
abbrev S1x4x1 : Shape := ⟨3, ![1, 4, 1]⟩
abbrev S65536x1x1 : Shape := ⟨3, ![65536, 1, 1]⟩
abbrev S65536x4x8x64 : Shape := ⟨4, ![65536, 4, 8, 64]⟩
abbrev S65536x1x1x64 : Shape := ⟨4, ![65536, 1, 1, 64]⟩
abbrev S1x4x8x64 : Shape := ⟨4, ![1, 4, 8, 64]⟩
abbrev S65536x4x8x1 : Shape := ⟨4, ![65536, 4, 8, 1]⟩
abbrev S65536x8x64 : Shape := ⟨3, ![65536, 8, 64]⟩
abbrev S65536x512 : Shape := ⟨2, ![65536, 512]⟩
abbrev S512x8 : Shape := ⟨2, ![512, 8]⟩
abbrev S1x8 : Shape := ⟨2, ![1, 8]⟩

abbrev nBuf : Space → Nat
  | .hbm => 137
  | .vmem => 0
  | .smem => 0
  | _ => 0

abbrev hbmTy0_0 (i : Nat) : BufTy := match i % 128 with
  | 0 => ⟨S65536x8, .f32⟩
  | 1 => ⟨S65536x4x8x16x4, .f32⟩
  | 2 => ⟨S32x8, .f32⟩
  | 3 => ⟨S32, .f32⟩
  | 4 => ⟨S64x32, .f32⟩
  | 5 => ⟨S8x512, .f32⟩
  | 6 => ⟨S8, .f32⟩
  | 7 => ⟨S64x64, .f32⟩
  | 8 => ⟨S64, .f32⟩
  | 9 => ⟨S1x64, .f32⟩
  | 10 => ⟨S1, .f32⟩
  | 11 => ⟨S1x64, .f32⟩
  | 12 => ⟨S1, .f32⟩
  | 13 => ⟨S1x32, .f32⟩
  | 14 => ⟨S1, .f32⟩
  | 15 => ⟨S1x32, .f32⟩
  | 16 => ⟨S1, .f32⟩
  | 17 => ⟨S4x8x64, .f32⟩
  | 18 => ⟨S4x8x64, .f32⟩
  | 19 => ⟨S4, .f32⟩
  | 20 => ⟨S8x32, .f32⟩
  | 21 => ⟨S65536x32, .f32⟩
  | 22 => ⟨S1x32, .f32⟩
  | 23 => ⟨S65536x32, .f32⟩
  | 24 => ⟨S65536x32, .f32⟩
  | 25 => ⟨S32x1, .f32⟩
  | 26 => ⟨S65536x1, .f32⟩
  | 27 => ⟨S1x1, .f32⟩
  | 28 => ⟨S65536x1, .f32⟩
  | 29 => ⟨S65536x1, .f32⟩
  | 30 => ⟨S65536x1, .f32⟩
  | 31 => ⟨S65536x1, .f32⟩
  | 32 => ⟨S_, .f32⟩
  | 33 => ⟨S65536x1, .f32⟩
  | 34 => ⟨S65536x1, .f32⟩
  | 35 => ⟨S_, .f32⟩
  | 36 => ⟨S65536x1, .f32⟩
  | 37 => ⟨S65536x1, .f32⟩
  | 38 => ⟨S32x1, .f32⟩
  | 39 => ⟨S65536x1, .f32⟩
  | 40 => ⟨S1x1, .f32⟩
  | 41 => ⟨S65536x1, .f32⟩
  | 42 => ⟨S65536x1, .f32⟩
  | 43 => ⟨S65536x1, .f32⟩
  | 44 => ⟨S65536x1, .f32⟩
  | 45 => ⟨S_, .f32⟩
  | 46 => ⟨S65536x1, .f32⟩
  | 47 => ⟨S65536x1, .f32⟩
  | 48 => ⟨S_, .f32⟩
  | 49 => ⟨S65536x1, .f32⟩
  | 50 => ⟨S65536x1, .f32⟩
  | 51 => ⟨S65536x1, .f32⟩
  | 52 => ⟨S32x64, .f32⟩
  | 53 => ⟨S65536x64, .f32⟩
  | 54 => ⟨S65536x64, .f32⟩
  | 55 => ⟨S64x64, .f32⟩
  | 56 => ⟨S65536x64, .f32⟩
  | 57 => ⟨S1x64, .f32⟩
  | 58 => ⟨S65536x64, .f32⟩
  | 59 => ⟨S65536x64, .f32⟩
  | 60 => ⟨S_, .f32⟩
  | 61 => ⟨S65536x64, .f32⟩
  | 62 => ⟨S65536x64, .f32⟩
  | 63 => ⟨S64x1, .f32⟩
  | 64 => ⟨S65536x1, .f32⟩
  | 65 => ⟨S1x1, .f32⟩
  | 66 => ⟨S65536x1, .f32⟩
  | 67 => ⟨S65536x1, .f32⟩
  | 68 => ⟨S65536x1, .f32⟩
  | 69 => ⟨S65536x1, .f32⟩
  | 70 => ⟨S_, .f32⟩
  | 71 => ⟨S65536x1, .f32⟩
  | 72 => ⟨S65536x1, .f32⟩
  | 73 => ⟨S_, .f32⟩
  | 74 => ⟨S65536x1, .f32⟩
  | 75 => ⟨S65536x1, .f32⟩
  | 76 => ⟨S64x1, .f32⟩
  | 77 => ⟨S65536x1, .f32⟩
  | 78 => ⟨S1x1, .f32⟩
  | 79 => ⟨S65536x1, .f32⟩
  | 80 => ⟨S65536x1, .f32⟩
  | 81 => ⟨S65536x1, .f32⟩
  | 82 => ⟨S65536x1, .f32⟩
  | 83 => ⟨S_, .f32⟩
  | 84 => ⟨S65536x1, .f32⟩
  | 85 => ⟨S65536x1, .f32⟩
  | 86 => ⟨S_, .f32⟩
  | 87 => ⟨S65536x1, .f32⟩
  | 88 => ⟨S65536x1, .f32⟩
  | 89 => ⟨S65536x4x8, .f32⟩
  | 90 => ⟨S4x1, .f32⟩
  | 91 => ⟨S1x4x1, .f32⟩
  | 92 => ⟨S65536x4x8, .f32⟩
  | 93 => ⟨S65536x4x8, .f32⟩
  | 94 => ⟨S65536x4x8, .f32⟩
  | 95 => ⟨S65536x4x8, .f32⟩
  | 96 => ⟨S_, .f32⟩
  | 97 => ⟨S65536x4x8, .f32⟩
  | 98 => ⟨S65536x4x8, .f32⟩
  | 99 => ⟨S_, .f32⟩
  | 100 => ⟨S65536x4x8, .f32⟩
  | 101 => ⟨S65536x4x8, .f32⟩
  | 102 => ⟨S65536x1, .f32⟩
  | 103 => ⟨S65536x1x1, .f32⟩
  | 104 => ⟨S65536x4x8, .f32⟩
  | 105 => ⟨S65536x4x8, .f32⟩
  | 106 => ⟨S4x8x64, .f32⟩
  | 107 => ⟨S4x8x64, .f32⟩
  | 108 => ⟨S_, .f32⟩
  | 109 => ⟨S4x8x64, .f32⟩
  | 110 => ⟨S4x8x64, .f32⟩
  | 111 => ⟨S_, .f32⟩
  | 112 => ⟨S4x8x64, .f32⟩
  | 113 => ⟨S4x8x64, .f32⟩
  | 114 => ⟨S65536x4x8x64, .f32⟩
  | 115 => ⟨S65536x64, .f32⟩
  | 116 => ⟨S65536x64, .f32⟩
  | 117 => ⟨S65536x1x1x64, .f32⟩
  | 118 => ⟨S1x4x8x64, .f32⟩
  | 119 => ⟨S65536x4x8x64, .f32⟩
  | 120 => ⟨S65536x4x8x64, .f32⟩
  | 121 => ⟨S65536x4x8x1, .f32⟩
  | 122 => ⟨S65536x4x8x64, .f32⟩
  | 123 => ⟨S65536x4x8x64, .f32⟩
  | 124 => ⟨S65536x4x8x64, .f32⟩
  | 125 => ⟨S65536x4x8x64, .f32⟩
  | 126 => ⟨S_, .f32⟩
  | 127 => ⟨S65536x8x64, .f32⟩
  | _ => ⟨S65536x8, .f32⟩

abbrev hbmTy0_1 (i : Nat) : BufTy := match i % 128 with
  | 0 => ⟨S_, .f32⟩
  | 1 => ⟨S65536x8x64, .f32⟩
  | 2 => ⟨S65536x8x64, .f32⟩
  | 3 => ⟨S65536x512, .f32⟩
  | 4 => ⟨S512x8, .f32⟩
  | 5 => ⟨S65536x8, .f32⟩
  | 6 => ⟨S1x8, .f32⟩
  | 7 => ⟨S65536x8, .f32⟩
  | 8 => ⟨S65536x8, .f32⟩
  | _ => ⟨S65536x8, .f32⟩

abbrev hbmTy (i : Nat) : BufTy := match i / 128 with
  | 0 => hbmTy0_0 i
  | 1 => hbmTy0_1 i
  | _ => ⟨S65536x8, .f32⟩

abbrev bufTy : (tb : Table) → Fin (tcTables nBuf tb) → BufTy
  | .hbm, ⟨i, _⟩ => hbmTy i
  | _, _ => ⟨S65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call0_cst : Ref sig .tc := ⟨.hbm, 60, rfl⟩
abbrev main_call0_v0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_5 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_7 : Ref sig .tc := ⟨.hbm, 96, rfl⟩
abbrev main_v66 : Ref sig .tc := ⟨.hbm, 97, rfl⟩
abbrev main_v67 : Ref sig .tc := ⟨.hbm, 98, rfl⟩
abbrev main_cst_8 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_9 : Ref sig .tc := ⟨.hbm, 108, rfl⟩
abbrev main_v76 : Ref sig .tc := ⟨.hbm, 109, rfl⟩
abbrev main_v77 : Ref sig .tc := ⟨.hbm, 110, rfl⟩
abbrev main_cst_10 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_11 : Ref sig .tc := ⟨.hbm, 126, rfl⟩
abbrev main_v92 : Ref sig .tc := ⟨.hbm, 127, rfl⟩
abbrev main_cst_12 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]

class Facts₀ : Prop where
  transposes_S32x8_S8x32_1_0 : S32x8.Transposes [1, 0] S8x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  transposes_S1x32_S32x1_1_0 : S1x32.Transposes [1, 0] S32x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  transposes_S64x32_S32x64_1_0 : S64x32.Transposes [1, 0] S32x64
  transposes_S64x64_S64x64_1_0 : S64x64.Transposes [1, 0] S64x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  transposes_S1x64_S64x1_1_0 : S1x64.Transposes [1, 0] S64x1
  bcast_S4_S4x1_0 : S4.BroadcastsInDim S4x1 (![0] : Fin 1 → Fin S4x1.rank)
  bcast_S4x1_S1x4x1_1_2 : S4x1.BroadcastsInDim S1x4x1 (![1, 2] : Fin 2 → Fin S1x4x1.rank)
  bcast_S1x4x1_S65536x4x8_0_1_2 : S1x4x1.BroadcastsInDim S65536x4x8 (![0, 1, 2] : Fin 3 → Fin S65536x4x8.rank)
  bcast_S_S65536x4x8 : S_.BroadcastsInDim S65536x4x8 (![] : Fin 0 → Fin S65536x4x8.rank)
  bcast_S65536x1_S65536x1x1_0_1 : S65536x1.BroadcastsInDim S65536x1x1 (![0, 1] : Fin 2 → Fin S65536x1x1.rank)
  bcast_S65536x1x1_S65536x4x8_0_1_2 : S65536x1x1.BroadcastsInDim S65536x4x8 (![0, 1, 2] : Fin 3 → Fin S65536x4x8.rank)
  bcast_S_S4x8x64 : S_.BroadcastsInDim S4x8x64 (![] : Fin 0 → Fin S4x8x64.rank)
  shapeCasts_S65536x4x8x16x4_S65536x4x8x64 : S65536x4x8x16x4.ShapeCasts S65536x4x8x64
  bcast_S65536x1_S65536x64_0_1 : S65536x1.BroadcastsInDim S65536x64 (![0, 1] : Fin 2 → Fin S65536x64.rank)
  bcast_S65536x64_S65536x1x1x64_0_3 : S65536x64.BroadcastsInDim S65536x1x1x64 (![0, 3] : Fin 2 → Fin S65536x1x1x64.rank)
  bcast_S4x8x64_S1x4x8x64_1_2_3 : S4x8x64.BroadcastsInDim S1x4x8x64 (![1, 2, 3] : Fin 3 → Fin S1x4x8x64.rank)
  bcast_S1x4x8x64_S65536x4x8x64_0_1_2_3 : S1x4x8x64.BroadcastsInDim S65536x4x8x64 (![0, 1, 2, 3] : Fin 4 → Fin S65536x4x8x64.rank)
  bcast_S65536x4x8_S65536x4x8x1_0_1_2 : S65536x4x8.BroadcastsInDim S65536x4x8x1 (![0, 1, 2] : Fin 3 → Fin S65536x4x8x1.rank)
  bcast_S65536x4x8x1_S65536x4x8x64_0_1_2_3 : S65536x4x8x1.BroadcastsInDim S65536x4x8x64 (![0, 1, 2, 3] : Fin 4 → Fin S65536x4x8x64.rank)
  bcast_S65536x1x1x64_S65536x4x8x64_0_1_2_3 : S65536x1x1x64.BroadcastsInDim S65536x4x8x64 (![0, 1, 2, 3] : Fin 4 → Fin S65536x4x8x64.rank)
  reducesTo_S65536x4x8x64_S65536x8x64_d1 : S65536x4x8x64.ReducesTo [1] S65536x8x64
  h_S_ : 0 < S_.numel
  bcast_S_S65536x8x64 : S_.BroadcastsInDim S65536x8x64 (![] : Fin 0 → Fin S65536x8x64.rank)
  shapeCasts_S65536x8x64_S65536x512 : S65536x8x64.ShapeCasts S65536x512
  transposes_S8x512_S512x8_1_0 : S8x512.Transposes [1, 0] S512x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  dot_S65536x8_S8x32_S65536x32_1_0_0_1_n_n_wf : DotDims.WF S65536x8 S8x32 S65536x32 [1] [0] [0] [1] [] []
  dot_S65536x32_S32x1_S65536x1_1_0_0_1_n_n_wf : DotDims.WF S65536x32 S32x1 S65536x1 [1] [0] [0] [1] [] []
  dot_S65536x32_S32x64_S65536x64_1_0_0_1_n_n_wf : DotDims.WF S65536x32 S32x64 S65536x64 [1] [0] [0] [1] [] []
  dot_S65536x64_S64x64_S65536x64_1_0_0_1_n_n_wf : DotDims.WF S65536x64 S64x64 S65536x64 [1] [0] [0] [1] [] []
  dot_S65536x64_S64x1_S65536x1_1_0_0_1_n_n_wf : DotDims.WF S65536x64 S64x1 S65536x1 [1] [0] [0] [1] [] []
  dot_S65536x64_S4x8x64_S65536x4x8_1_2_0_01_n_n_wf : DotDims.WF S65536x64 S4x8x64 S65536x4x8 [1] [2] [0] [0, 1] [] []
  dot_S65536x512_S512x8_S65536x8_1_0_0_1_n_n_wf : DotDims.WF S65536x512 S512x8 S65536x8 [1] [0] [0] [1] [] []

variable [Facts₀]

def dot_S65536x8_S8x32_S65536x32_1_0_0_1_n_n : DotDims S65536x8 S8x32 S65536x32 where
  lhsContracting := [1]
  rhsContracting := [0]
  lhsNonContracting := [0]
  rhsNonContracting := [1]
  lhsBatch := []
  rhsBatch := []
  wf := dot_S65536x8_S8x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf
def dot_S65536x32_S32x64_S65536x64_1_0_0_1_n_n : DotDims S65536x32 S32x64 S65536x64 where
  lhsContracting := [1]
  rhsContracting := [0]
  lhsNonContracting := [0]
  rhsNonContracting := [1]
  lhsBatch := []
  rhsBatch := []
  wf := dot_S65536x32_S32x64_S65536x64_1_0_0_1_n_n_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf
def dot_S65536x64_S4x8x64_S65536x4x8_1_2_0_01_n_n : DotDims S65536x64 S4x8x64 S65536x4x8 where
  lhsContracting := [1]
  rhsContracting := [2]
  lhsNonContracting := [0]
  rhsNonContracting := [0, 1]
  lhsBatch := []
  rhsBatch := []
  wf := dot_S65536x64_S4x8x64_S65536x4x8_1_2_0_01_n_n_wf
def dot_S65536x512_S512x8_S65536x8_1_0_0_1_n_n : DotDims S65536x512 S512x8 S65536x8 where
  lhsContracting := [1]
  rhsContracting := [0]
  lhsNonContracting := [0]
  rhsNonContracting := [1]
  lhsBatch := []
  rhsBatch := []
  wf := dot_S65536x512_S512x8_S65536x8_1_0_0_1_n_n_wf

class Facts : Prop extends Facts₀ where

variable [Facts]
-- ==== Proof.Spec.lean ====
/-
  The gated memory read, one batch row at a time, on the extended reals.

  From a row `x` (8 numbers) and the weights: the latent `s1 = x·W_bitᵀ + b_bit`, the surprise
  `σ(s1·W_sur + b_sur) · σ(s1·W_gate + b_gate)`, the working state `s2 = tanh (s1·W_bridgeᵀ)`, the governor
  `hg = max (s2·W_shᵀ + b_sh) 0` with its two heads `eng`, `imp` (a sigmoid each), the halting gate
  `halt l r = σ(Σ_m s2 m · halt_w l r m + halt_b l)` and `gate l r = halt l r · (eng · imp)`.

  The row of the memory slab `H l r m` is decayed and written to, `H l r m · dg l r m + gate l r · (surprise · s2 m)`,
  averaged over the four layers `l`, flattened over `(r, m)` and read out by `W_read`, `b_read`.

  Two arrangements of the average are stated: `readSplit`, the mean of the decayed slab plus the write times the mean
  gate, and `readWhole`, the mean of the whole updated slab. `Law.lean` proves them equal.
-/
import Idealize.ShloMosaic.PureOps.Ideal

noncomputable section

open scoped BigOperators

namespace Cert.Memory

open Idealize.ShloMosaic

/-- The weights, by coordinates. `dg` is the decay gate `σ(decays)`; `haltw` is indexed by layer, slot, feature. -/
structure Weights where
  Wbit : Fin 32 → Fin 8 → EReal
  bbit : Fin 32 → EReal
  Wbridge : Fin 64 → Fin 32 → EReal
  Wread : Fin 8 → Fin 512 → EReal
  bread : Fin 8 → EReal
  Wsh : Fin 64 → Fin 64 → EReal
  bsh : Fin 64 → EReal
  Weng : Fin 64 → EReal
  beng : EReal
  Wimp : Fin 64 → EReal
  bimp : EReal
  Wsur : Fin 32 → EReal
  bsur : EReal
  Wgate : Fin 32 → EReal
  bgate : EReal
  dg : Fin 4 → Fin 8 → Fin 64 → EReal
  haltw : Fin 4 → Fin 8 → Fin 64 → EReal
  haltb : Fin 4 → EReal

/-- The float pattern of `0.0`, `4.0`: kept as patterns, the same word on both sides. -/
abbrev zero32 : EReal := Ideal.ofBits .f32 0x00000000#32
abbrev four32 : EReal := Ideal.ofBits .f32 0x40800000#32

variable (W : Weights) (x : Fin 8 → EReal) (H : Fin 4 → Fin 8 → Fin 64 → EReal)

/-- `s1 = x·W_bitᵀ + b_bit`. -/
def s1 (j : Fin 32) : EReal := (∑ k : Fin 8, x k * W.Wbit j k) + W.bbit j

/-- `σ(s1·W_sur + b_sur) · σ(s1·W_gate + b_gate)`. -/
def surprise : EReal :=
  Ideal.logistic ((∑ j : Fin 32, s1 W x j * W.Wsur j) + W.bsur)
    * Ideal.logistic ((∑ j : Fin 32, s1 W x j * W.Wgate j) + W.bgate)

/-- `s2 = tanh (s1·W_bridgeᵀ)`. -/
def s2 (m : Fin 64) : EReal := Ideal.tanh (∑ j : Fin 32, s1 W x j * W.Wbridge m j)

/-- `hg = max (s2·W_shᵀ + b_sh) 0`. -/
def hg (n : Fin 64) : EReal := max ((∑ m : Fin 64, s2 W x m * W.Wsh n m) + W.bsh n) zero32

def eng : EReal := Ideal.logistic ((∑ n : Fin 64, hg W x n * W.Weng n) + W.beng)
def imp : EReal := Ideal.logistic ((∑ n : Fin 64, hg W x n * W.Wimp n) + W.bimp)

/-- The halting gate of layer `l`, slot `r`. -/
def halt (l : Fin 4) (r : Fin 8) : EReal := Ideal.logistic ((∑ m : Fin 64, s2 W x m * W.haltw l r m) + W.haltb l)

def gate (l : Fin 4) (r : Fin 8) : EReal := halt W x l r * (eng W x * imp W x)

/-- What is written at feature `m`: `surprise · s2 m`. -/
def write (m : Fin 64) : EReal := surprise W x * s2 W x m

/-- The mean over layers of the decayed slab, plus the write times the mean gate. -/
def readSplit (r : Fin 8) (m : Fin 64) : EReal :=
  Ideal.div (∑ l : Fin 4, H l r m * W.dg l r m) four32 + write W x m * Ideal.div (∑ l : Fin 4, gate W x l r) four32

/-- The mean over layers of the updated slab `H·dg + gate·write`. -/
def readWhole (r : Fin 8) (m : Fin 64) : EReal :=
  Ideal.div (zero32 + ∑ l : Fin 4, (H l r m * W.dg l r m + gate W x l r * write W x m)) four32

/-- The flat row `l·8 + r` of layer `l`, slot `r` in the `[32, 64]` arrangement of the halting weights. -/
abbrev flatSlot (l : Fin 4) (r : Fin 8) : Fin 32 := ⟨l.val * 8 + r.val, by have := l.isLt; have := r.isLt; omega⟩

/-- A feature `m = d·4 + c` of the slab's last two axes `[16, 4]`. -/
abbrev featHi (m : Fin 64) : Fin 16 := ⟨m.val / 4, by have := m.isLt; omega⟩
abbrev featLo (m : Fin 64) : Fin 4 := ⟨m.val % 4, Nat.mod_lt _ (by decide)⟩

/-- Slot and feature of a flat position `k = r·64 + m`. -/
abbrev slotOf (k : Fin 512) : Fin 8 := ⟨k.val / 64, by have := k.isLt; omega⟩
abbrev featOf (k : Fin 512) : Fin 64 := ⟨k.val % 64, Nat.mod_lt _ (by decide)⟩

/-- The readout over the flattened `(slot, feature)` positions. -/
def outSplit (o : Fin 8) : EReal :=
  (∑ k : Fin 512, readSplit W x H (slotOf k) (featOf k) * W.Wread o k) + W.bread o

def outWhole (o : Fin 8) : EReal :=
  (∑ k : Fin 512, readWhole W x H (slotOf k) (featOf k) * W.Wread o k) + W.bread o

end Cert.Memory

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KernelStagesA.lean ====
/-
  The kernel body's first values at one row `p` of the batch tile, read on the extended reals: the latent `s1`
  (a product of the row with `W_bitᵀ` plus the bias), the surprise (two sigmoid heads of `s1` multiplied), the working
  state `s2 = tanh (s1·W_bridgeᵀ)`. A change of float format is the identity here, a product into a zero accumulator is
  the plain sum over the contracted coordinate, a transposed weight is read with its coordinates swapped.
-/
import proofs.«136379_j32899449488193_1_alg».proof.Proof.Gen.KernelIdeal.Skeleton
import proofs.«136379_j32899449488193_1_alg».proof.Proof.Spec
import proofs.«136379_j32899449488193_1_alg».proof.Proof.LibRowDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Memory.KernelStages

open Cert.KernelIdeal Cert.KernelIdeal.Gen Idealize.ShloMosaic Idealize.ShloMosaic.ValueIdx Cert.Memory

variable (W : Weights) (x : Fin 8 → EReal)

/-- The contraction record of the first product is the plain `[1024, 8] × [8, 32]` one. -/
theorem dot_s1_eq : dot_S1024x8_S8x32_S1024x32_1_0_0_1_n_n = DotDims.plain 1024 8 32 := rfl

/-- `s1` at row `p`, coordinate `j`. -/
theorem s1_apply (v0 : Vec Ideal S1024x8 .f32) (v2 : Vec Ideal S32x8 .f32) (v4 : Vec Ideal S32 .f32) (p : Fin 1024)
    (hx : ∀ k : Fin 8, v0 (ix2 p k) = x k) (hWbit : ∀ (j : Fin 32) (k : Fin 8), v2 (ix2 j k) = W.Wbit j k)
    (hbbit : ∀ j : Fin 32, v4 (ix1 j) = W.bbit j) (j : Fin 32) :
    k0_pay2 (F := Ideal) v0 v2 v4 (ix2 p j) = s1 W x j := by
  unfold k0_pay2 s1
  rw [truncf_apply, addf_apply]
  congr 1
  · rw [dot_s1_eq]
    refine (RowDims.matmul_plain_zero_apply none _ _ p j).trans ?_
    refine Finset.sum_congr rfl fun k _ => ?_
    rw [truncf_apply, transpose_ix2_apply, truncf_apply, hx, hWbit]
  · rw [broadcastTo_1b_ab_apply, shapeCast_a_1a_apply, hbbit]

/-- The contraction record of the two head products is the plain `[1024, 32] × [32, 1]` one. -/
theorem dot_sur_eq : dot_S1024x32_S32x1_S1024x1_1_0_0_1_n_n = DotDims.plain 1024 32 1 := rfl

/-- The contraction record of the bridge product is the plain `[1024, 32] × [32, 64]` one. -/
theorem dot_s2_eq : dot_S1024x32_S32x64_S1024x64_1_0_0_1_n_n = DotDims.plain 1024 32 64 := rfl

/-- The surprise at row `p`. -/
theorem surprise_apply (v0 : Vec Ideal S1024x8 .f32) (v2 : Vec Ideal S32x8 .f32) (v4 : Vec Ideal S32 .f32)
    (v11 : Vec Ideal S1x32 .f32) (v13 : Vec Ideal S1 .f32) (v14 : Vec Ideal S1x32 .f32) (v16 : Vec Ideal S1 .f32) (p : Fin 1024)
    (hx : ∀ k : Fin 8, v0 (ix2 p k) = x k) (hWbit : ∀ (j : Fin 32) (k : Fin 8), v2 (ix2 j k) = W.Wbit j k)
    (hbbit : ∀ j : Fin 32, v4 (ix1 j) = W.bbit j)
    (hWsur : ∀ j : Fin 32, v11 (ix2 (0 : Fin 1) j) = W.Wsur j) (hbsur : v13 (ix1 (0 : Fin 1)) = W.bsur)
    (hWgate : ∀ j : Fin 32, v14 (ix2 (0 : Fin 1) j) = W.Wgate j) (hbgate : v16 (ix1 (0 : Fin 1)) = W.bgate) :
    k0_pay3 (F := Ideal) v0 v2 v4 v11 v13 v14 v16 (ix2 p (0 : Fin 1)) = surprise W x := by
  unfold k0_pay3 surprise
  rw [mulf_apply]
  show Ideal.logistic _ * Ideal.logistic _ = _
  congr 1
  · -- the first head: σ(s1·W_sur + b_sur)
    congr 1
    rw [addf_apply]
    congr 1
    · rw [dot_sur_eq]
      refine (RowDims.matmul_plain_zero_apply none _ _ p (0 : Fin 1)).trans ?_
      refine Finset.sum_congr rfl fun j _ => ?_
      rw [s1_apply W x v0 v2 v4 p hx hWbit hbbit j, transpose_ix2_apply, truncf_apply, hWsur]
    · rw [broadcastTo_1b_ab_apply, shapeCast_a_1a_apply, hbsur]
  · -- the second head: σ(s1·W_gate + b_gate)
    congr 1
    rw [addf_apply]
    congr 1
    · rw [dot_sur_eq]
      refine (RowDims.matmul_plain_zero_apply none _ _ p (0 : Fin 1)).trans ?_
      refine Finset.sum_congr rfl fun j _ => ?_
      rw [s1_apply W x v0 v2 v4 p hx hWbit hbbit j, transpose_ix2_apply, truncf_apply, hWgate]
    · rw [broadcastTo_1b_ab_apply, shapeCast_a_1a_apply, hbgate]

/-- `s2` at row `p`, feature `f`. -/
theorem s2_apply (v0 : Vec Ideal S1024x8 .f32) (v2 : Vec Ideal S32x8 .f32) (v4 : Vec Ideal S32 .f32) (v30 : Vec Ideal S64x32 .f32)
    (p : Fin 1024) (hx : ∀ k : Fin 8, v0 (ix2 p k) = x k) (hWbit : ∀ (j : Fin 32) (k : Fin 8), v2 (ix2 j k) = W.Wbit j k)
    (hbbit : ∀ j : Fin 32, v4 (ix1 j) = W.bbit j) (hWbridge : ∀ (f : Fin 64) (j : Fin 32), v30 (ix2 f j) = W.Wbridge f j)
    (f : Fin 64) : k0_pay4 (F := Ideal) v0 v2 v4 v30 (ix2 p f) = s2 W x f := by
  unfold k0_pay4 s2
  show Ideal.tanh _ = _
  congr 1
  rw [dot_s2_eq]
  refine (RowDims.matmul_plain_zero_apply none _ _ p f).trans ?_
  refine Finset.sum_congr rfl fun j _ => ?_
  rw [s1_apply W x v0 v2 v4 p hx hWbit hbbit j, transpose_ix2_apply, truncf_apply, hWbridge]

/-- The same value in the narrower format. -/
theorem s2b_apply (v0 : Vec Ideal S1024x8 .f32) (v2 : Vec Ideal S32x8 .f32) (v4 : Vec Ideal S32 .f32) (v30 : Vec Ideal S64x32 .f32)
    (p : Fin 1024) (hx : ∀ k : Fin 8, v0 (ix2 p k) = x k) (hWbit : ∀ (j : Fin 32) (k : Fin 8), v2 (ix2 j k) = W.Wbit j k)
    (hbbit : ∀ j : Fin 32, v4 (ix1 j) = W.bbit j) (hWbridge : ∀ (f : Fin 64) (j : Fin 32), v30 (ix2 f j) = W.Wbridge f j)
    (f : Fin 64) : k0_pay5 (F := Ideal) v0 v2 v4 v30 (ix2 p f) = s2 W x f := by
  unfold k0_pay5
  rw [truncf_apply]
  exact s2_apply W x v0 v2 v4 v30 p hx hWbit hbbit hWbridge f

/-- The governor's weight in the narrower format is the weight. -/
theorem wsh_apply (v36 : Vec Ideal S64x64 .f32) (i : S64x64.Idx) : k0_pay6 (F := Ideal) v36 i = v36 i := rfl

end Cert.Memory.KernelStages

end
-- ==== Proof.KernelStagesB.lean ====
/-
  The mean gate at one row `p` of the batch tile: the governor `hg = max (s2·W_shᵀ + b_sh) 0`, its two sigmoid heads
  `eng`, `imp`, the halting logits `s2·halt_wᵀ` regrouped from 32 columns into (layer, slot), the halting gate, the gate
  `halt · (eng · imp)`, and its sum over the four layers divided by four.
-/
import proofs.«136379_j32899449488193_1_alg».proof.Proof.Gen.KernelIdeal.Skeleton
import proofs.«136379_j32899449488193_1_alg».proof.Proof.Spec
import proofs.«136379_j32899449488193_1_alg».proof.Proof.LibRowDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Memory.KernelStages

open Cert.KernelIdeal Cert.KernelIdeal.Gen Idealize.ShloMosaic Idealize.ShloMosaic.ValueIdx Cert.Memory

variable (W : Weights) (x : Fin 8 → EReal)

/-- The three contraction records are the plain ones. -/
theorem dot_gov_eq : dot_S1024x64_S64x64_S1024x64_1_0_0_1_n_n = DotDims.plain 1024 64 64 := rfl
theorem dot_head_eq : dot_S1024x64_S64x1_S1024x1_1_0_0_1_n_n = DotDims.plain 1024 64 1 := rfl
theorem dot_halt_eq : dot_S1024x64_S64x32_S1024x32_1_0_0_1_n_n = DotDims.plain 1024 64 32 := rfl

/-- The governor at row `p`, coordinate `n`: the product of the row's working state with the transposed weight, plus
    the bias, capped below by the zero pattern. -/
theorem gov_apply (a : FVec Ideal S1024x64 .bf16) (w : FVec Ideal S64x64 .bf16) (b : Vec Ideal S64 .f32) (p : Fin 1024)
    (hs2 : ∀ f : Fin 64, a (ix2 p f) = s2 W x f) (hWsh : ∀ n f : Fin 64, w (ix2 n f) = W.Wsh n f)
    (hbsh : ∀ n : Fin 64, b (ix1 n) = W.bsh n)
    (ht : S64x64.Transposes [1, 0] S64x64) (hc : S64.ShapeCasts S1x64) (hb : S1x64.Broadcasts S1024x64) (n : Fin 64) :
    maximumf (addf (matmul (DotDims.plain 1024 64 64) none a (transpose S64x64 [1, 0] w ht) (constant S1024x64 .f32 0x00000000#32))
      (broadcastTo S1024x64 (shapeCast S1x64 b hc) hb)) (broadcast S1024x64 (Scalar.ofBits (F := Ideal) .f32 0x00000000#32)) (ix2 p n)
      = hg W x n := by
  unfold hg
  rw [maximumf_apply, addf_apply]
  congr 1
  congr 1
  · refine (RowDims.matmul_plain_zero_apply none _ _ p n).trans ?_
    refine Finset.sum_congr rfl fun k _ => ?_
    rw [transpose_ix2_apply, hs2, hWsh]
  · rw [broadcastTo_1b_ab_apply, shapeCast_a_1a_apply, hbsh]

/-- A sigmoid head at row `p`: the product of a row `g` with one weight row, plus the bias, through the logistic. -/
theorem head_apply (g : FVec Ideal S1024x64 .bf16) (w : Vec Ideal S1x64 .f32) (b : Vec Ideal S1 .f32) (p : Fin 1024)
    (G wv : Fin 64 → EReal) (bv : EReal)
    (hG : ∀ n : Fin 64, g (ix2 p n) = G n) (hw : ∀ n : Fin 64, w (ix2 (0 : Fin 1) n) = wv n) (hbv : b (ix1 (0 : Fin 1)) = bv)
    (hlt : FTy.bits .bf16 < FTy.bits .f32) (ht : S1x64.Transposes [1, 0] S64x1) (hc : S1.ShapeCasts S1x1)
    (hb : S1x1.Broadcasts S1024x1) :
    logistic (addf (matmul (DotDims.plain 1024 64 1) none g (transpose S64x1 [1, 0] (truncf .bf16 w hlt) ht) (constant S1024x1 .f32 0x00000000#32))
      (broadcastTo S1024x1 (shapeCast S1x1 b hc) hb)) (ix2 p (0 : Fin 1))
      = Ideal.logistic ((∑ n : Fin 64, G n * wv n) + bv) := by
  show Ideal.logistic (_ + _) = _
  congr 1
  congr 1
  · refine (RowDims.matmul_plain_zero_apply none _ _ p (0 : Fin 1)).trans ?_
    refine Finset.sum_congr rfl fun k _ => ?_
    rw [transpose_ix2_apply, truncf_apply, hG, hw]
  · rw [broadcastTo_1b_ab_apply, shapeCast_a_1a_apply, hbv]

/-- The halting logits at row `p`, regrouped from 32 columns into (layer, slot): column `l·8 + r` of the product of
    the row's working state with the transposed halting weights. -/
theorem haltLogit_apply (a : FVec Ideal S1024x64 .bf16) (w : Vec Ideal S32x64 .f32) (p : Fin 1024)
    (hs2 : ∀ f : Fin 64, a (ix2 p f) = s2 W x f)
    (hhaltw : ∀ (l : Fin 4) (r : Fin 8) (f : Fin 64), w (ix2 (flatSlot l r) f) = W.haltw l r f)
    (hc0 : S32x64.ShapeCasts S32x64) (hlt : FTy.bits .bf16 < FTy.bits .f32) (ht : S32x64.Transposes [1, 0] S64x32)
    (hc : S1024x32.ShapeCasts S1024x4x8) (l : Fin 4) (r : Fin 8) :
    shapeCast S1024x4x8 (matmul (DotDims.plain 1024 64 32) none a
        (transpose S64x32 [1, 0] (truncf .bf16 (shapeCast S32x64 w hc0) hlt) ht) (constant S1024x32 .f32 0x00000000#32)) hc (ix3 p l r)
      = ∑ m : Fin 64, s2 W x m * W.haltw l r m := by
  refine (shapeCast_apply _ hc (ix3 p l r) (ix2 p (flatSlot l r)) ?_).trans ?_
  · rw [Shape.rowMajor_val_two, Shape.rowMajor_val_three]
    show p.val * 32 + (l.val * 8 + r.val) = (p.val * 4 + l.val) * 8 + r.val
    omega
  · refine (RowDims.matmul_plain_zero_apply none _ _ p (flatSlot l r)).trans ?_
    refine Finset.sum_congr rfl fun k _ => ?_
    rw [transpose_ix2_apply, truncf_apply, shapeCast_apply w hc0 (ix2 (flatSlot l r) k) (ix2 (flatSlot l r) k) rfl, hs2, hhaltw]

/-- The halting bias, cast from `[4]` to `[1, 4, 1]` and broadcast over rows and slots, reads its layer's entry. -/
theorem haltBias_apply (b : Vec Ideal S4 .f32) (hc : S4.ShapeCasts S1x4x1) (hb : S1x4x1.Broadcasts S1024x4x8)
    (p : Fin 1024) (l : Fin 4) (r : Fin 8) :
    broadcastTo S1024x4x8 (shapeCast S1x4x1 b hc) hb (ix3 p l r) = b (ix1 l) := by
  refine (broadcastTo_apply _ hb (ix3 p l r) (ix3 (0 : Fin 1) l (0 : Fin 1)) fun ax => ?_).trans ?_
  · match ax with
    | ⟨0, _⟩ => rfl
    | ⟨1, _⟩ => rfl
    | ⟨2, _⟩ => rfl
  · refine shapeCast_apply b hc _ (ix1 l) ?_
    rw [Shape.rowMajor_val_one, Shape.rowMajor_val_three]
    show l.val = (0 * 4 + l.val) * 1 + 0
    omega

/-- A per-row scalar, cast from `[1024, 1]` to `[1024, 1, 1]` and broadcast over layers and slots, reads the row's entry. -/
theorem rowScalar_apply (e : FVec Ideal S1024x1 .f32) (hc : S1024x1.ShapeCasts S1024x1x1) (hb : S1024x1x1.Broadcasts S1024x4x8)
    (p : Fin 1024) (l : Fin 4) (r : Fin 8) :
    broadcastTo S1024x4x8 (shapeCast S1024x1x1 e hc) hb (ix3 p l r) = e (ix2 p (0 : Fin 1)) := by
  refine (broadcastTo_apply _ hb (ix3 p l r) (ix3 p (0 : Fin 1) (0 : Fin 1)) fun ax => ?_).trans ?_
  · match ax with
    | ⟨0, _⟩ => rfl
    | ⟨1, _⟩ => rfl
    | ⟨2, _⟩ => rfl
  · refine shapeCast_apply e hc _ (ix2 p (0 : Fin 1)) ?_
    rw [Shape.rowMajor_val_two, Shape.rowMajor_val_three]
    show p.val * 1 + 0 = (p.val * 1 + 0) * 1 + 0
    omega

/-- The sum over the layer axis of a `[1024, 4, 8]` block, at row `p`, slot `r`. -/
theorem laneSum_apply (g : FVec Ideal S1024x4x8 .f32) (h : S1024x4x8.Reduces [1] S1024x8) (hφ : FKind.Formats .f32)
    (hacc : (0x00000000#32 : BitVec (FTy.bits .f32)) = FKind.add.neutral .f32 hφ) (p : Fin 1024) (r : Fin 8) :
    multiReduction .add [1] S1024x8 g 0x00000000#32 h hφ hacc (ix2 p r) = ∑ l : Fin 4, g (ix3 p l r) := by
  refine (Ideal.multiReduction_add_single g _ h hφ hacc (ix2 p r)).trans ?_
  refine Finset.sum_congr rfl fun l _ => congrArg g ?_
  funext ax
  refine Fin.ext ?_
  match ax with
  | ⟨0, _⟩ => rfl
  | ⟨1, _⟩ => rfl
  | ⟨2, _⟩ => rfl

/-- The mean gate at row `p`, slot `r`, from the row's working state `v35` and the governor's weights. -/
theorem gateMean_apply (v35 : FVec Ideal S1024x64 .bf16) (v37 : FVec Ideal S64x64 .bf16) (v38 : Vec Ideal S64 .f32)
    (v47 : Vec Ideal S1x64 .f32) (v49 : Vec Ideal S1 .f32) (v50 : Vec Ideal S1x64 .f32) (v52 : Vec Ideal S1 .f32)
    (v65 : Vec Ideal S32x64 .f32) (v71 : Vec Ideal S4 .f32) (p : Fin 1024)
    (hs2 : ∀ f : Fin 64, v35 (ix2 p f) = s2 W x f)
    (hWsh : ∀ n f : Fin 64, v37 (ix2 n f) = W.Wsh n f) (hbsh : ∀ n : Fin 64, v38 (ix1 n) = W.bsh n)
    (hWeng : ∀ n : Fin 64, v47 (ix2 (0 : Fin 1) n) = W.Weng n) (hbeng : v49 (ix1 (0 : Fin 1)) = W.beng)
    (hWimp : ∀ n : Fin 64, v50 (ix2 (0 : Fin 1) n) = W.Wimp n) (hbimp : v52 (ix1 (0 : Fin 1)) = W.bimp)
    (hhaltw : ∀ (l : Fin 4) (r : Fin 8) (f : Fin 64), v65 (ix2 (flatSlot l r) f) = W.haltw l r f)
    (hhaltb : ∀ l : Fin 4, v71 (ix1 l) = W.haltb l) (r : Fin 8) :
    k0_pay7 (F := Ideal) v35 v37 v38 v47 v49 v50 v52 v65 v71 (ix2 p r) = Ideal.div (∑ l : Fin 4, gate W x l r) four32 := by
  unfold k0_pay7
  rw [dot_gov_eq, dot_head_eq, dot_halt_eq]
  -- the quotient at (p, r): the lane sum over the four-pattern
  rw [divf_apply]
  congr 1
  refine (laneSum_apply _ _ _ _ p r).trans ?_
  refine Finset.sum_congr rfl fun l _ => ?_
  -- the gate at (p, l, r): the halting gate times the row's eng · imp
  rw [mulf_apply]
  unfold gate
  congr 1
  · unfold halt
    show Ideal.logistic (_ + _) = _
    congr 1
    congr 1
    · exact haltLogit_apply W x v35 v65 p hs2 hhaltw _ _ _ _ l r
    · exact (haltBias_apply v71 _ _ p l r).trans (hhaltb l)
  · refine (rowScalar_apply _ _ _ p l r).trans ?_
    rw [mulf_apply]
    congr 1
    · exact head_apply _ v47 v49 p (hg W x) W.Weng W.beng
        (fun n => gov_apply W x v35 v37 v38 p hs2 hWsh hbsh _ _ _ n) hWeng hbeng _ _ _ _
    · exact head_apply _ v50 v52 p (hg W x) W.Wimp W.bimp
        (fun n => gov_apply W x v35 v37 v38 p hs2 hWsh hbsh _ _ _ n) hWimp hbimp _ _ _ _

end Cert.Memory.KernelStages

end
-- ==== Proof.KernelStagesC.lean ====
/-
  The stored value at one row `p` of the batch tile: the decayed slab averaged over the layers, plus the write
  `surprise · s2` times the mean gate, flattened over (slot, feature) and read out by `W_readᵀ` and `b_read`.
-/
import proofs.«136379_j32899449488193_1_alg».proof.Proof.Gen.KernelIdeal.Skeleton
import proofs.«136379_j32899449488193_1_alg».proof.Proof.Spec
import proofs.«136379_j32899449488193_1_alg».proof.Proof.LibRowDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Memory.KernelStages

open Cert.KernelIdeal Cert.KernelIdeal.Gen Idealize.ShloMosaic Idealize.ShloMosaic.ValueIdx Cert.Memory

variable (W : Weights) (x : Fin 8 → EReal)

variable (H : Fin 4 → Fin 8 → Fin 64 → EReal)

/-- The mean over layers of the decayed slab at row `p`, slot `r`, feature `f`. -/
theorem decayed_apply (v83 : Vec Ideal S1024x4x8x64 .f32) (v85 : Vec Ideal S4x8x64 .f32) (p : Fin 1024)
    (hH : ∀ (l : Fin 4) (r : Fin 8) (f : Fin 64), v83 (ix4 p l r f) = H l r f)
    (hdg : ∀ (l : Fin 4) (r : Fin 8) (f : Fin 64), v85 (ix3 l r f) = W.dg l r f) (r : Fin 8) (f : Fin 64) :
    divf (F := Ideal) (multiReduction (F := Ideal) .add [1] S1024x8x64
        (mulf (shapeCast S1024x4x8x64 v83 shapeCasts_S1024x4x8x64_S1024x4x8x64)
          (broadcastTo S1024x4x8x64
            (shapeCast S1x4x8x64 (shapeCast S4x8x64 v85 shapeCasts_S4x8x64_S4x8x64) shapeCasts_S4x8x64_S1x4x8x64)
            broadcasts_S1x4x8x64_S1024x4x8x64))
        0x00000000#32 reduces_S1024x4x8x64_S1024x8x64 (.inl rfl) rfl)
      (broadcast S1024x8x64 (Scalar.ofBits (F := Ideal) .f32 0x40800000#32)) (ix3 p r f)
    = Ideal.div (∑ l : Fin 4, H l r f * W.dg l r f) four32 := by
  rw [divf_apply]
  refine congrArg₂ Ideal.div ?_ rfl
  refine (Ideal.multiReduction_add_single _ _ reduces_S1024x4x8x64_S1024x8x64 _ _ (ix3 p r f)).trans ?_
  refine Finset.sum_congr rfl fun (l : Fin 4) _ => ?_
  have hl : reduces_S1024x4x8x64_S1024x8x64.lift (ix3 p r f) l = ix4 p l r f :=
    funext fun a => Fin.ext (by match a with | ⟨0, _⟩ => rfl | ⟨1, _⟩ => rfl | ⟨2, _⟩ => rfl | ⟨3, _⟩ => rfl)
  rw [hl, mulf_apply, shapeCast_self, hH]
  congr 1
  refine (broadcastTo_apply _ broadcasts_S1x4x8x64_S1024x4x8x64 (ix4 p l r f) (ix4 (0 : Fin 1) l r f) fun a => ?_).trans ?_
  · match a with
    | ⟨0, _⟩ => rfl
    | ⟨1, _⟩ => rfl
    | ⟨2, _⟩ => rfl
    | ⟨3, _⟩ => rfl
  · rw [shapeCast_abc_1abc_apply, shapeCast_self, hdg]

/-- What is written at row `p`, feature `f`: the surprise times the working state. -/
theorem write_apply (v29 : FVec Ideal S1024x1 .f32) (v34 : FVec Ideal S1024x64 .f32) (p : Fin 1024)
    (hsur : v29 (ix2 p (0 : Fin 1)) = surprise W x) (hs2 : ∀ f : Fin 64, v34 (ix2 p f) = s2 W x f) (f : Fin 64) :
    mulf (F := Ideal) (broadcastTo S1024x64 v29 broadcasts_S1024x1_S1024x64) v34 (ix2 p f) = write W x f := by
  unfold write
  rw [mulf_apply, hs2]
  congr 1
  refine (broadcastTo_apply _ broadcasts_S1024x1_S1024x64 (ix2 p f) (ix2 p (0 : Fin 1)) fun a => ?_).trans hsur
  match a with
  | ⟨0, _⟩ => rfl
  | ⟨1, _⟩ => rfl

/-- The write times the mean gate at row `p`, slot `r`, feature `f`. -/
theorem gated_apply (w : FVec Ideal S1024x64 .f32) (v82 : FVec Ideal S1024x8 .f32) (p : Fin 1024)
    (hw : ∀ f : Fin 64, w (ix2 p f) = write W x f)
    (hgm : ∀ r : Fin 8, v82 (ix2 p r) = Ideal.div (∑ l : Fin 4, gate W x l r) four32) (r : Fin 8) (f : Fin 64) :
    mulf (F := Ideal)
        (broadcastTo S1024x8x64 (shapeCast S1024x1x64 w shapeCasts_S1024x64_S1024x1x64) broadcasts_S1024x1x64_S1024x8x64)
        (broadcastTo S1024x8x64 (shapeCast S1024x8x1 v82 shapeCasts_S1024x8_S1024x8x1) broadcasts_S1024x8x1_S1024x8x64)
        (ix3 p r f)
      = write W x f * Ideal.div (∑ l : Fin 4, gate W x l r) four32 := by
  rw [mulf_apply]
  congr 1
  · refine (broadcastTo_apply _ broadcasts_S1024x1x64_S1024x8x64 (ix3 p r f) (ix3 p (0 : Fin 1) f) fun a => ?_).trans ?_
    · match a with
      | ⟨0, _⟩ => rfl
      | ⟨1, _⟩ => rfl
      | ⟨2, _⟩ => rfl
    · refine (shapeCast_apply _ shapeCasts_S1024x64_S1024x1x64 (ix3 p (0 : Fin 1) f) (ix2 p f) ?_).trans (hw f)
      rw [Shape.rowMajor_val_two, Shape.rowMajor_val_three]
      show p.val * 64 + f.val = (p.val * 1 + 0) * 64 + f.val
      omega
  · refine (broadcastTo_apply _ broadcasts_S1024x8x1_S1024x8x64 (ix3 p r f) (ix3 p r (0 : Fin 1)) fun a => ?_).trans ?_
    · match a with
      | ⟨0, _⟩ => rfl
      | ⟨1, _⟩ => rfl
      | ⟨2, _⟩ => rfl
    · refine (shapeCast_apply _ shapeCasts_S1024x8_S1024x8x1 (ix3 p r (0 : Fin 1)) (ix2 p r) ?_).trans (hgm r)
      rw [Shape.rowMajor_val_two, Shape.rowMajor_val_three]
      show p.val * 8 + r.val = (p.val * 8 + r.val) * 1 + 0
      omega

/-- The contraction record of the readout is the plain `[1024, 512] × [512, 8]` one. -/
theorem dot_out_eq : dot_S1024x512_S512x8_S1024x8_1_0_0_1_n_n = DotDims.plain 1024 512 8 := rfl

/-- The stored value at row `p`, output `o`, from the row's surprise `v29`, working state `v34`, mean gate `v82`,
    slab rows `v83` and the decay gate `v85`. -/
theorem out_apply (v29 : FVec Ideal S1024x1 .f32) (v34 : FVec Ideal S1024x64 .f32) (v82 : FVec Ideal S1024x8 .f32)
    (v83 : Vec Ideal S1024x4x8x64 .f32) (v85 : Vec Ideal S4x8x64 .f32) (v103 : Vec Ideal S8x512 .f32) (v105 : Vec Ideal S8 .f32)
    (p : Fin 1024)
    (hsur : v29 (ix2 p (0 : Fin 1)) = surprise W x) (hs2 : ∀ f : Fin 64, v34 (ix2 p f) = s2 W x f)
    (hgm : ∀ r : Fin 8, v82 (ix2 p r) = Ideal.div (∑ l : Fin 4, gate W x l r) four32)
    (hH : ∀ (l : Fin 4) (r : Fin 8) (f : Fin 64), v83 (ix4 p l r f) = H l r f)
    (hdg : ∀ (l : Fin 4) (r : Fin 8) (f : Fin 64), v85 (ix3 l r f) = W.dg l r f)
    (hWread : ∀ (o : Fin 8) (k : Fin 512), v103 (ix2 o k) = W.Wread o k) (hbread : ∀ o : Fin 8, v105 (ix1 o) = W.bread o)
    (o : Fin 8) :
    k0_pay1 (F := Ideal) v29 v34 v82 v83 v85 v103 v105 (ix2 p o) = outSplit W x H o := by
  unfold k0_pay1 outSplit
  rw [addf_apply]
  congr 1
  · rw [dot_out_eq]
    refine (RowDims.matmul_plain_zero_apply none _ _ p o).trans ?_
    refine Finset.sum_congr rfl fun k _ => ?_
    rw [truncf_apply, transpose_ix2_apply, truncf_apply, hWread]
    congr 1
    refine (shapeCast_apply _ shapeCasts_S1024x8x64_S1024x512 (ix2 p k) (ix3 p (slotOf k) (featOf k)) ?_).trans ?_
    · rw [Shape.rowMajor_val_two, Shape.rowMajor_val_three]
      show (p.val * 8 + k.val / 64) * 64 + k.val % 64 = p.val * 512 + k.val
      omega
    · rw [addf_apply]
      unfold readSplit
      congr 1
      · exact decayed_apply W H v83 v85 p hH hdg (slotOf k) (featOf k)
      · exact gated_apply W x _ v82 p (write_apply W x v29 v34 p hsur hs2) hgm (slotOf k) (featOf k)
  · rw [broadcastTo_1b_ab_apply, shapeCast_a_1a_apply, hbread]

end Cert.Memory.KernelStages

end
-- ==== Proof.KernelRows.lean ====
/-
  What the kernel body leaves in the output block, read at row `p` of the batch tile and output `o`: the split readout
  of the gated memory read of that row. The body's one store covers the whole block, and every load reads a whole
  input block; so the block is the stored value, which the three stage modules read at `(p, o)`: the surprise and the
  working state from the row of `x`, the mean gate from the working state, and the readout from all three and the row
  of the slab.
-/
import proofs.«136379_j32899449488193_1_alg».proof.Proof.Gen.KernelIdeal.Frame
import proofs.«136379_j32899449488193_1_alg».proof.Proof.KernelStagesA
import proofs.«136379_j32899449488193_1_alg».proof.Proof.KernelStagesB
import proofs.«136379_j32899449488193_1_alg».proof.Proof.KernelStagesC
import Idealize.ShloMosaic.Lib.Pipeline.Value

noncomputable section

open scoped BigOperators

namespace Cert.Memory.KernelRows

open Cert.KernelIdeal Cert.KernelIdeal.Gen Idealize.ShloMosaic Idealize.ShloMosaic.ValueIdx Cert.Memory

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (W : Weights) (x : Fin 8 → EReal) (H : Fin 4 → Fin 8 → Fin 64 → EReal)

/-- The output block at `(p, o)`, from input blocks whose row `p` is `x`, `H` and whose weights are `W`. -/
theorem block_apply (x0 : Vec Ideal S1024x8 .f32) (x1 : Vec Ideal S1024x4x8x64 .f32) (x2 : Vec Ideal S32x8 .f32)
    (x3 : Vec Ideal S32 .f32) (x4 : Vec Ideal S64x32 .f32) (x5 : Vec Ideal S8x512 .f32) (x6 : Vec Ideal S8 .f32)
    (x7 : Vec Ideal S64x64 .f32) (x8 : Vec Ideal S64 .f32) (x9 : Vec Ideal S1x64 .f32) (x10 : Vec Ideal S1 .f32)
    (x11 : Vec Ideal S1x64 .f32) (x12 : Vec Ideal S1 .f32) (x13 : Vec Ideal S1x32 .f32) (x14 : Vec Ideal S1 .f32)
    (x15 : Vec Ideal S1x32 .f32) (x16 : Vec Ideal S1 .f32) (x17 : Vec Ideal S4x8x64 .f32) (x18 : Vec Ideal S32x64 .f32)
    (x19 : Vec Ideal S4 .f32) (p : Fin 1024)
    (hx : ∀ k : Fin 8, x0 (ix2 p k) = x k)
    (hH : ∀ (l : Fin 4) (r : Fin 8) (f : Fin 64), x1 (ix4 p l r f) = H l r f)
    (hWbit : ∀ (j : Fin 32) (k : Fin 8), x2 (ix2 j k) = W.Wbit j k) (hbbit : ∀ j : Fin 32, x3 (ix1 j) = W.bbit j)
    (hWbridge : ∀ (f : Fin 64) (j : Fin 32), x4 (ix2 f j) = W.Wbridge f j)
    (hWread : ∀ (o : Fin 8) (k : Fin 512), x5 (ix2 o k) = W.Wread o k) (hbread : ∀ o : Fin 8, x6 (ix1 o) = W.bread o)
    (hWsh : ∀ n f : Fin 64, x7 (ix2 n f) = W.Wsh n f) (hbsh : ∀ n : Fin 64, x8 (ix1 n) = W.bsh n)
    (hWeng : ∀ n : Fin 64, x9 (ix2 (0 : Fin 1) n) = W.Weng n) (hbeng : x10 (ix1 (0 : Fin 1)) = W.beng)
    (hWimp : ∀ n : Fin 64, x11 (ix2 (0 : Fin 1) n) = W.Wimp n) (hbimp : x12 (ix1 (0 : Fin 1)) = W.bimp)
    (hWsur : ∀ j : Fin 32, x13 (ix2 (0 : Fin 1) j) = W.Wsur j) (hbsur : x14 (ix1 (0 : Fin 1)) = W.bsur)
    (hWgate : ∀ j : Fin 32, x15 (ix2 (0 : Fin 1) j) = W.Wgate j) (hbgate : x16 (ix1 (0 : Fin 1)) = W.bgate)
    (hdg : ∀ (l : Fin 4) (r : Fin 8) (f : Fin 64), x17 (ix3 l r f) = W.dg l r f)
    (hhaltw : ∀ (l : Fin 4) (r : Fin 8) (f : Fin 64), x18 (ix2 (flatSlot l r) f) = W.haltw l r f)
    (hhaltb : ∀ l : Fin 4, x19 (ix1 l) = W.haltb l) (o : Fin 8) :
    out0_20 (F := Ideal) x0 x1 x2 x3 x4 x5 x6 x7 x8 x9 x10 x11 x12 x13 x14 x15 x16 x17 x18 x19 (ix2 p o) = outSplit W x H o := by
  unfold out0_20
  rw [View.canon_unit_zero hz2]
  simp only [View.ld_unit_zero (S := S1024x8) hz2, View.ld_unit_zero (S := S32x8) hz2, View.ld_unit_zero (S := S32) hz1,
    View.ld_unit_zero (S := S1x32) hz2, View.ld_unit_zero (S := S1) hz1, View.ld_unit_zero (S := S64x32) hz2,
    View.ld_unit_zero (S := S64x64) hz2, View.ld_unit_zero (S := S64) hz1, View.ld_unit_zero (S := S1x64) hz2,
    View.ld_unit_zero (S := S32x64) hz2, View.ld_unit_zero (S := S4) hz1, View.ld_unit_zero (S := S1024x4x8x64) hz4,
    View.ld_unit_zero (S := S4x8x64) hz3, View.ld_unit_zero (S := S8x512) hz2, View.ld_unit_zero (S := S8) hz1]
  exact KernelStages.out_apply W x H (k0_pay3 x0 x2 x3 x13 x14 x15 x16) (k0_pay4 x0 x2 x3 x4)
    (k0_pay7 (k0_pay5 x0 x2 x3 x4) (k0_pay6 x7) x8 x9 x10 x11 x12 x18 x19) x1 x17 x5 x6 p
    (KernelStages.surprise_apply W x x0 x2 x3 x13 x14 x15 x16 p hx hWbit hbbit hWsur hbsur hWgate hbgate)
    (fun f => KernelStages.s2_apply W x x0 x2 x3 x4 p hx hWbit hbbit hWbridge f)
    (fun r => KernelStages.gateMean_apply W x (k0_pay5 x0 x2 x3 x4) (k0_pay6 x7) x8 x9 x10 x11 x12 x18 x19 p
      (fun f => KernelStages.s2b_apply W x x0 x2 x3 x4 p hx hWbit hbbit hWbridge f)
      (fun n f => (KernelStages.wsh_apply x7 (ix2 n f)).trans (hWsh n f)) hbsh hWeng hbeng hWimp hbimp hhaltw hhaltb r)
    hH hdg hWread hbread o

end Cert.Memory.KernelRows

end
-- ==== Proof.Arrays.lean ====
/-
  The result as ONE function of the twenty argument arrays, index by index.

  Row `b` of the result is the readout of the gated memory read of row `b` of `x` and row `b` of the slab `H`
  (its last two axes `[16, 4]` read as one feature axis of 64), under the weights read off the arrays: the weight
  matrices by their coordinates, the one-row heads by their row, the decay gate as the sigmoid of `decays`, the halting
  weights by (layer, slot, feature).
-/
import proofs.«136379_j32899449488193_1_alg».proof.Proof.Spec
import Idealize.ShloMosaic.Lib.ValueIdx

noncomputable section

open scoped BigOperators

namespace Cert.Memory

open Idealize.ShloMosaic Idealize.ShloMosaic.ValueIdx

/-- The weights read off the argument arrays. -/
def arrWeights (a2 : (⟨2, ![32, 8]⟩ : Shape).Idx → EReal) (a3 : (⟨1, ![32]⟩ : Shape).Idx → EReal)
    (a4 : (⟨2, ![64, 32]⟩ : Shape).Idx → EReal) (a5 : (⟨2, ![8, 512]⟩ : Shape).Idx → EReal) (a6 : (⟨1, ![8]⟩ : Shape).Idx → EReal)
    (a7 : (⟨2, ![64, 64]⟩ : Shape).Idx → EReal) (a8 : (⟨1, ![64]⟩ : Shape).Idx → EReal)
    (a9 : (⟨2, ![1, 64]⟩ : Shape).Idx → EReal) (a10 : (⟨1, ![1]⟩ : Shape).Idx → EReal)
    (a11 : (⟨2, ![1, 64]⟩ : Shape).Idx → EReal) (a12 : (⟨1, ![1]⟩ : Shape).Idx → EReal)
    (a13 : (⟨2, ![1, 32]⟩ : Shape).Idx → EReal) (a14 : (⟨1, ![1]⟩ : Shape).Idx → EReal)
    (a15 : (⟨2, ![1, 32]⟩ : Shape).Idx → EReal) (a16 : (⟨1, ![1]⟩ : Shape).Idx → EReal)
    (a17 a18 : (⟨3, ![4, 8, 64]⟩ : Shape).Idx → EReal) (a19 : (⟨1, ![4]⟩ : Shape).Idx → EReal) : Weights where
  Wbit j k := a2 (ix2 j k)
  bbit j := a3 (ix1 j)
  Wbridge f j := a4 (ix2 f j)
  Wread o k := a5 (ix2 o k)
  bread o := a6 (ix1 o)
  Wsh n f := a7 (ix2 n f)
  bsh n := a8 (ix1 n)
  Weng n := a9 (ix2 (0 : Fin 1) n)
  beng := a10 (ix1 (0 : Fin 1))
  Wimp n := a11 (ix2 (0 : Fin 1) n)
  bimp := a12 (ix1 (0 : Fin 1))
  Wsur j := a13 (ix2 (0 : Fin 1) j)
  bsur := a14 (ix1 (0 : Fin 1))
  Wgate j := a15 (ix2 (0 : Fin 1) j)
  bgate := a16 (ix1 (0 : Fin 1))
  dg l r f := Ideal.logistic (a17 (ix3 l r f))
  haltw l r f := a18 (ix3 l r f)
  haltb l := a19 (ix1 l)

/-- Row `b` of `x`. -/
abbrev xRow (a0 : (⟨2, ![65536, 8]⟩ : Shape).Idx → EReal) (b : Fin 65536) : Fin 8 → EReal := fun k => a0 (ix2 b k)

/-- Row `b` of the slab, its last two axes read as one feature axis. -/
abbrev slabRow (a1 : (⟨5, ![65536, 4, 8, 16, 4]⟩ : Shape).Idx → EReal) (b : Fin 65536) : Fin 4 → Fin 8 → Fin 64 → EReal :=
  fun l r f => a1 (ix5 b l r (featHi f) (featLo f))

/-- The result array. -/
def result (a0 : (⟨2, ![65536, 8]⟩ : Shape).Idx → EReal) (a1 : (⟨5, ![65536, 4, 8, 16, 4]⟩ : Shape).Idx → EReal)
    (a2 : (⟨2, ![32, 8]⟩ : Shape).Idx → EReal) (a3 : (⟨1, ![32]⟩ : Shape).Idx → EReal)
    (a4 : (⟨2, ![64, 32]⟩ : Shape).Idx → EReal) (a5 : (⟨2, ![8, 512]⟩ : Shape).Idx → EReal) (a6 : (⟨1, ![8]⟩ : Shape).Idx → EReal)
    (a7 : (⟨2, ![64, 64]⟩ : Shape).Idx → EReal) (a8 : (⟨1, ![64]⟩ : Shape).Idx → EReal)
    (a9 : (⟨2, ![1, 64]⟩ : Shape).Idx → EReal) (a10 : (⟨1, ![1]⟩ : Shape).Idx → EReal)
    (a11 : (⟨2, ![1, 64]⟩ : Shape).Idx → EReal) (a12 : (⟨1, ![1]⟩ : Shape).Idx → EReal)
    (a13 : (⟨2, ![1, 32]⟩ : Shape).Idx → EReal) (a14 : (⟨1, ![1]⟩ : Shape).Idx → EReal)
    (a15 : (⟨2, ![1, 32]⟩ : Shape).Idx → EReal) (a16 : (⟨1, ![1]⟩ : Shape).Idx → EReal)
    (a17 a18 : (⟨3, ![4, 8, 64]⟩ : Shape).Idx → EReal) (a19 : (⟨1, ![4]⟩ : Shape).Idx → EReal) :
    (⟨2, ![65536, 8]⟩ : Shape).Idx → EReal :=
  fun i => outWhole (arrWeights a2 a3 a4 a5 a6 a7 a8 a9 a10 a11 a12 a13 a14 a15 a16 a17 a18 a19)
    (xRow a0 ⟨(i 0).val, (i 0).isLt⟩) (slabRow a1 ⟨(i 0).val, (i 0).isLt⟩) ⟨(i 1).val, (i 1).isLt⟩

/-- The result at row `b`, output `o`. -/
theorem result_apply (a0 : (⟨2, ![65536, 8]⟩ : Shape).Idx → EReal) (a1 : (⟨5, ![65536, 4, 8, 16, 4]⟩ : Shape).Idx → EReal)
    (a2 : (⟨2, ![32, 8]⟩ : Shape).Idx → EReal) (a3 : (⟨1, ![32]⟩ : Shape).Idx → EReal)
    (a4 : (⟨2, ![64, 32]⟩ : Shape).Idx → EReal) (a5 : (⟨2, ![8, 512]⟩ : Shape).Idx → EReal) (a6 : (⟨1, ![8]⟩ : Shape).Idx → EReal)
    (a7 : (⟨2, ![64, 64]⟩ : Shape).Idx → EReal) (a8 : (⟨1, ![64]⟩ : Shape).Idx → EReal)
    (a9 : (⟨2, ![1, 64]⟩ : Shape).Idx → EReal) (a10 : (⟨1, ![1]⟩ : Shape).Idx → EReal)
    (a11 : (⟨2, ![1, 64]⟩ : Shape).Idx → EReal) (a12 : (⟨1, ![1]⟩ : Shape).Idx → EReal)
    (a13 : (⟨2, ![1, 32]⟩ : Shape).Idx → EReal) (a14 : (⟨1, ![1]⟩ : Shape).Idx → EReal)
    (a15 : (⟨2, ![1, 32]⟩ : Shape).Idx → EReal) (a16 : (⟨1, ![1]⟩ : Shape).Idx → EReal)
    (a17 a18 : (⟨3, ![4, 8, 64]⟩ : Shape).Idx → EReal) (a19 : (⟨1, ![4]⟩ : Shape).Idx → EReal) (b : Fin 65536) (o : Fin 8) :
    result a0 a1 a2 a3 a4 a5 a6 a7 a8 a9 a10 a11 a12 a13 a14 a15 a16 a17 a18 a19 (ix2 b o)
      = outWhole (arrWeights a2 a3 a4 a5 a6 a7 a8 a9 a10 a11 a12 a13 a14 a15 a16 a17 a18 a19) (xRow a0 b) (slabRow a1 b) o := rfl

end Cert.Memory

end
-- ==== Proof.Law.lean ====
/-
  The two arrangements of the layer average are one function on the extended reals.

  For one slot `r` and feature `m` write `a l = H l r m · dg l r m`, `g l = gate l r`, `w = surprise · s2 m` and
  `c = 1/4`. The whole form is `(Σ_l (a l + g l · w)) · c`, the split form `(Σ_l a l) · c + w · ((Σ_l g l) · c)`.
  Addition on the extended reals is commutative and associative, so the sum of sums splits with no side condition;
  multiplication by the nonnegative real `c` distributes over any sum; and `Σ_l g l · w = (Σ_l g l) · w` because every
  `g l` is a product of three sigmoid values, each of which lies in `[0, 1]` at every extended real (`σ(-∞) = 0`,
  `σ(+∞) = 1`): multiplication distributes over a sum of nonnegative terms whatever the other factor is. No finiteness of
  the inputs is used.
-/
import proofs.«136379_j32899449488193_1_alg».proof.Proof.Spec
import Idealize.ShloMosaic.PureOps.Ideal.Laws

noncomputable section

open scoped BigOperators

namespace Cert.Memory

open Idealize.ShloMosaic

/-- The pattern `0x40800000` denotes the real number four. -/
theorem four32_eq : four32 = ((4 : ℝ) : EReal) := by
  show Ideal.ofBits .f32 0x40800000#32 = _
  simp [Ideal.ofBits, Ideal.ieee, -EReal.coe_mul]; norm_num

/-- A sigmoid value is nonnegative at every extended real. -/
theorem logistic_nonneg (v : EReal) : 0 ≤ Ideal.logistic v := by
  induction v using EReal.rec with
  | bot => rw [Ideal.logistic_bot]
  | top => rw [Ideal.logistic_top]; exact zero_le_one
  | coe r =>
    rw [Ideal.logistic_coe]
    exact EReal.coe_nonneg.mpr (inv_nonneg.mpr (by positivity))

variable (W : Weights) (x : Fin 8 → EReal) (H : Fin 4 → Fin 8 → Fin 64 → EReal)

/-- The gate is a product of three sigmoid values, so it is nonnegative. -/
theorem gate_nonneg (l : Fin 4) (r : Fin 8) : 0 ≤ gate W x l r :=
  EReal.mul_nonneg (logistic_nonneg _) (EReal.mul_nonneg (logistic_nonneg _) (logistic_nonneg _))

/-- A common factor comes out of a sum of four products whose other factors are nonnegative. -/
theorem sum_four_mul_of_nonneg (g : Fin 4 → EReal) (hg : ∀ l, 0 ≤ g l) (w : EReal) :
    ∑ l : Fin 4, g l * w = (∑ l : Fin 4, g l) * w := by
  rw [Fin.sum_univ_four, Fin.sum_univ_four,
    EReal.right_distrib_of_nonneg (add_nonneg (add_nonneg (hg 0) (hg 1)) (hg 2)) (hg 3),
    EReal.right_distrib_of_nonneg (add_nonneg (hg 0) (hg 1)) (hg 2),
    EReal.right_distrib_of_nonneg (hg 0) (hg 1)]

/-- The mean of the decayed slab plus the write times the mean gate is the mean of the updated slab. -/
theorem readSplit_eq_readWhole (r : Fin 8) (m : Fin 64) : readSplit W x H r m = readWhole W x H r m := by
  have h4 : (4 : ℝ) ≠ 0 := by norm_num
  have hc : (0 : EReal) ≤ ((1 / 4 : ℝ) : EReal) := EReal.coe_nonneg.mpr (by norm_num)
  have hc' : ((1 / 4 : ℝ) : EReal) ≠ ⊤ := EReal.coe_ne_top _
  unfold readSplit readWhole
  rw [four32_eq, Ideal.div_coe h4, Ideal.div_coe h4, Ideal.div_coe h4]
  show _ = (Ideal.ofBits .f32 0x00000000#32 + _) * _
  rw [Ideal.ofBits_zero_f32, zero_add, Finset.sum_add_distrib,
    sum_four_mul_of_nonneg (fun l => gate W x l r) (fun l => gate_nonneg W x l r) (write W x m),
    EReal.right_distrib_of_nonneg_of_ne_top hc hc']
  congr 1
  rw [mul_comm (∑ l : Fin 4, gate W x l r) (write W x m), mul_assoc]

/-- So the two readouts agree. -/
theorem outSplit_eq_outWhole (o : Fin 8) : outSplit W x H o = outWhole W x H o := by
  unfold outSplit outWhole
  congr 1
  exact Finset.sum_congr rfl fun k _ => by rw [readSplit_eq_readWhole]

end Cert.Memory

end
-- ==== Proof.Blocks.lean ====
/-
  From the grid's blocks to the result array.

  The batch axis is cut into 64 tiles of 1024 rows. Grid point `t` reads tile `t` of `x` and of the regrouped slab,
  and every weight whole (their index maps are constantly zero, decided over the 64 points); it writes tile `t` of the
  output. So row `p` of point `t`'s blocks is row `1024·t + p` of the arrays. Two of the weights the region finds were
  made by host operations before it: the decay gate `1 / (1 + exp (-decays))`, which is the sigmoid of the decays, and
  the halting weights regrouped from `[4, 8, 64]` to `[32, 64]`, whose row `l·8 + r` is `(l, r)`; the slab is regrouped
  from `[.., 16, 4]` to `[.., 64]`, feature `f` being `(f / 4, f % 4)`.

  With that, what point `t` writes back is tile `t` of `result` of the argument arrays: the block's value at `(p, o)`
  is the split readout (KernelRows), which is the whole readout (Law). The 64 tiles cover the array, so the output
  array ends at `result`.
-/
import proofs.«136379_j32899449488193_1_alg».proof.Proof.Gen.KernelIdeal.Value
import proofs.«136379_j32899449488193_1_alg».proof.Proof.KernelRows
import proofs.«136379_j32899449488193_1_alg».proof.Proof.Arrays
import proofs.«136379_j32899449488193_1_alg».proof.Proof.Law
import Idealize.ShloMosaic.Lib.ValueIdx
import Idealize.ShloMosaic.Lib.IdealHost
import Idealize.ShloMosaic.Lib.Pipeline.Value
import Idealize.ShloMosaic.Lib.Tactic
import Idealize.ShloMosaic.Lib.StableHlo.Run

set_option maxRecDepth 16384

noncomputable section

open scoped BigOperators

open Idealize.ShloMosaic Idealize.ShloMosaic.TcCoe Idealize.SL.Sem
open Idealize.ShloMosaic.Pipeline (Dat)

namespace Cert.Memory.Blocks

open Cert.KernelIdeal Cert.KernelIdeal.Gen Cert.KernelIdeal.Value Idealize.ShloMosaic.ValueIdx Cert.Memory

variable (m : (ℓ : Loc nD τ sig) → Buf (Elt Ideal) ℓ) (ρ : Dev nD → PrngReg)

/-! ## The index maps, decided over the grid -/

/-- The three streamed windows (`x`, the regrouped slab, the output) move along the batch axis with the point. -/
theorem idx_stream : ∀ t : Fin cfg0.N, win0_0.index t (0 : Fin 2) = t.val ∧ win0_0.index t (1 : Fin 2) = 0
    ∧ win0_1.index t (0 : Fin 4) = t.val ∧ win0_1.index t (1 : Fin 4) = 0 ∧ win0_1.index t (2 : Fin 4) = 0 ∧ win0_1.index t (3 : Fin 4) = 0
    ∧ win0_20.index t (0 : Fin 2) = t.val ∧ win0_20.index t (1 : Fin 2) = 0 :=
  (by decide +kernel : ∀ t : Fin grid0.N, _)

/-- Every weight's window stays at block zero on every axis. -/
theorem idx_rank2 : ∀ (t : Fin cfg0.N) (a : Fin 2), win0_2.index t a = 0 ∧ win0_4.index t a = 0 ∧ win0_5.index t a = 0
    ∧ win0_7.index t a = 0 ∧ win0_9.index t a = 0 ∧ win0_11.index t a = 0 ∧ win0_13.index t a = 0 ∧ win0_15.index t a = 0
    ∧ win0_18.index t a = 0 :=
  (by decide +kernel : ∀ (t : Fin grid0.N) (a : Fin 2), _)

theorem idx_rank1 : ∀ (t : Fin cfg0.N) (a : Fin 1), win0_3.index t a = 0 ∧ win0_6.index t a = 0 ∧ win0_8.index t a = 0
    ∧ win0_10.index t a = 0 ∧ win0_12.index t a = 0 ∧ win0_14.index t a = 0 ∧ win0_16.index t a = 0 ∧ win0_19.index t a = 0 :=
  (by decide +kernel : ∀ (t : Fin grid0.N) (a : Fin 1), _)

theorem idx_rank3 : ∀ (t : Fin cfg0.N) (a : Fin 3), win0_17.index t a = 0 :=
  (by decide +kernel : ∀ (t : Fin grid0.N) (a : Fin 3), _)

/-- Row `p` of tile `t` is row `1024·t + p` of the batch. -/
abbrev rowOf (t : Fin cfg0.N) (p : Fin 1024) : Fin 65536 :=
  ⟨1024 * t.val + p.val, by have h : t.val < 64 := lt_of_lt_of_eq t.isLt N_0; have := p.isLt; omega⟩

/-! ## The host-made windows at an index -/

/-- The regrouped slab the region finds. -/
theorem V_slab (c : Dev nD) : (V m c main_v0 : S65536x4x8x64.Idx → EReal)
    = shapeCast S65536x4x8x64 (m ((c : Thread nD τ).loc main_arg1)) shapeCasts_S65536x4x8x16x4_S65536x4x8x64 := by
  dsimp only [Gen.V, Gen.hostOps0]; after_results; rfl

/-- Feature `f` of the regrouped slab is `(f / 4, f % 4)` of the slab. -/
theorem V_slab_apply (c : Dev nD) (b : Fin 65536) (l : Fin 4) (r : Fin 8) (f : Fin 64) :
    (V m c main_v0 : S65536x4x8x64.Idx → EReal) (ix4 b l r f)
      = ((m ((c : Thread nD τ).loc main_arg1)) : S65536x4x8x16x4.Idx → EReal) (ix5 b l r (featHi f) (featLo f)) := by
  rw [V_slab]
  refine shapeCast_apply _ _ _ _ ?_
  show (S65536x4x8x16x4.rowMajor (ix5 b l r (featHi f) (featLo f))).val = (S65536x4x8x64.rowMajor (ix4 b l r f)).val
  rw [Shape.rowMajor_val_five, Shape.rowMajor_val_four]
  show (((b.val * 4 + l.val) * 8 + r.val) * 16 + f.val / 4) * 4 + f.val % 4 = ((b.val * 4 + l.val) * 8 + r.val) * 64 + f.val
  omega

/-- The regrouped halting weights the region finds. -/
theorem V_haltw (c : Dev nD) : (V m c main_v7 : S32x64.Idx → EReal)
    = shapeCast S32x64 (m ((c : Thread nD τ).loc main_arg18)) shapeCasts_S4x8x64_S32x64 := by
  dsimp only [Gen.V, Gen.hostOps0]; after_results; rfl

/-- Row `l·8 + r` of the regrouped halting weights is `(l, r)` of the halting weights. -/
theorem V_haltw_apply (c : Dev nD) (l : Fin 4) (r : Fin 8) (f : Fin 64) :
    (V m c main_v7 : S32x64.Idx → EReal) (ix2 (flatSlot l r) f) = ((m ((c : Thread nD τ).loc main_arg18)) : S4x8x64.Idx → EReal) (ix3 l r f) := by
  rw [V_haltw]
  refine shapeCast_apply _ _ _ _ ?_
  show (S4x8x64.rowMajor (ix3 l r f)).val = (S32x64.rowMajor (ix2 (flatSlot l r) f)).val
  rw [Shape.rowMajor_val_three, Shape.rowMajor_val_two]
  rfl

/-- The decay gate the region finds: `1 / (1 + exp (-decays))`, the ones being the pattern of `1.0`. -/
theorem V_decay (c : Dev nD) : (V m c main_v6 : S4x8x64.Idx → EReal)
    = Host.divf (F := Ideal) (broadcastInDim S4x8x64 ![] bcast_S_S4x8x64 (constant (F := Ideal) S_ .f32 0x3F800000#32))
        (addf (broadcastInDim S4x8x64 ![] bcast_S_S4x8x64 (constant (F := Ideal) S_ .f32 0x3F800000#32))
          (Host.exp (F := Ideal) (Host.negf (F := Ideal) (m ((c : Thread nD τ).loc main_arg17))))) := by
  dsimp only [Gen.V, Gen.hostOps0]; after_results

/-- `1 / (1 + exp (-v))` with both ones the pattern of `1.0` is the sigmoid of `v`. -/
theorem sigmoid_spelt (v : EReal) :
    Ideal.div (Ideal.ofBits .f32 0x3F800000#32) (Ideal.ofBits .f32 0x3F800000#32 + Ideal.exp (-v)) = Ideal.logistic v := by
  rw [Ideal.ofBits_one_f32]
  rfl

/-- It is the sigmoid of the decays, entry by entry. -/
theorem V_decay_apply (c : Dev nD) (i : S4x8x64.Idx) :
    (V m c main_v6 : S4x8x64.Idx → EReal) i = Ideal.logistic (((m ((c : Thread nD τ).loc main_arg17)) : S4x8x64.Idx → EReal) i) := by
  rw [V_decay]
  exact sigmoid_spelt (((m ((c : Thread nD τ).loc main_arg17)) : S4x8x64.Idx → EReal) i)

/-! ## Each window's block at a point -/

/-- Row `p` of point `t`'s block of `x`. -/
theorem iblk0_apply (c : Dev nD) (t : Fin cfg0.N) (p : Fin 1024) (k : Fin 8) :
    (iblk m c 0 t : Vec Ideal S1024x8 .f32) (ix2 p k) = ((m ((c : Thread nD τ).loc main_arg0)) : S65536x8.Idx → EReal) (ix2 (rowOf t p) k) := by
  obtain ⟨e0, e1, -⟩ := idx_stream t
  unfold iblk
  rw [View.read_apply]
  show V m c main_arg0 _ = _
  rw [V_main_arg0]
  congr 1
  funext a
  apply Fin.ext
  match a with
  | ⟨0, _⟩ => show win0_0.index t (0 : Fin 2) * 1024 + 1 * p.val = 1024 * t.val + p.val; rw [e0]; omega
  | ⟨1, _⟩ => show win0_0.index t (1 : Fin 2) * 8 + 1 * k.val = k.val; rw [e1]; omega

/-- Row `p` of point `t`'s block of the regrouped slab. -/
theorem iblk1_apply (c : Dev nD) (t : Fin cfg0.N) (p : Fin 1024) (l : Fin 4) (r : Fin 8) (f : Fin 64) :
    (iblk m c 1 t : Vec Ideal S1024x4x8x64 .f32) (ix4 p l r f)
      = ((m ((c : Thread nD τ).loc main_arg1)) : S65536x4x8x16x4.Idx → EReal) (ix5 (rowOf t p) l r (featHi f) (featLo f)) := by
  obtain ⟨-, -, e0, e1, e2, e3, -⟩ := idx_stream t
  rw [← V_slab_apply m c (rowOf t p) l r f]
  unfold iblk
  rw [View.read_apply]
  show V m c main_v0 _ = _
  congr 1
  funext a
  apply Fin.ext
  match a with
  | ⟨0, _⟩ => show win0_1.index t (0 : Fin 4) * 1024 + 1 * p.val = 1024 * t.val + p.val; rw [e0]; omega
  | ⟨1, _⟩ => show win0_1.index t (1 : Fin 4) * 4 + 1 * l.val = l.val; rw [e1]; omega
  | ⟨2, _⟩ => show win0_1.index t (2 : Fin 4) * 8 + 1 * r.val = r.val; rw [e2]; omega
  | ⟨3, _⟩ => show win0_1.index t (3 : Fin 4) * 64 + 1 * f.val = f.val; rw [e3]; omega

/-- Window 2's block is its whole array. -/
theorem iblk2_apply (c : Dev nD) (t : Fin cfg0.N) (i : S32x8.Idx) :
    (iblk m c 2 t : Vec Ideal S32x8 .f32) i = ((m ((c : Thread nD τ).loc main_arg2)) : S32x8.Idx → EReal) i := by
  unfold iblk
  rw [View.read_apply]
  show V m c main_arg2 _ = _
  rw [V_main_arg2]
  congr 1
  funext a
  apply Fin.ext
  show win0_2.index t a * S32x8.size a + 1 * (i a).val = (i a).val
  rw [(idx_rank2 t a).1]
  omega

/-- Window 3's block is its whole array. -/
theorem iblk3_apply (c : Dev nD) (t : Fin cfg0.N) (i : S32.Idx) :
    (iblk m c 3 t : Vec Ideal S32 .f32) i = ((m ((c : Thread nD τ).loc main_arg3)) : S32.Idx → EReal) i := by
  unfold iblk
  rw [View.read_apply]
  show V m c main_arg3 _ = _
  rw [V_main_arg3]
  congr 1
  funext a
  apply Fin.ext
  show win0_3.index t a * S32.size a + 1 * (i a).val = (i a).val
  rw [(idx_rank1 t a).1]
  omega

/-- Window 4's block is its whole array. -/
theorem iblk4_apply (c : Dev nD) (t : Fin cfg0.N) (i : S64x32.Idx) :
    (iblk m c 4 t : Vec Ideal S64x32 .f32) i = ((m ((c : Thread nD τ).loc main_arg4)) : S64x32.Idx → EReal) i := by
  unfold iblk
  rw [View.read_apply]
  show V m c main_arg4 _ = _
  rw [V_main_arg4]
  congr 1
  funext a
  apply Fin.ext
  show win0_4.index t a * S64x32.size a + 1 * (i a).val = (i a).val
  rw [(idx_rank2 t a).2.1]
  omega

/-- Window 5's block is its whole array. -/
theorem iblk5_apply (c : Dev nD) (t : Fin cfg0.N) (i : S8x512.Idx) :
    (iblk m c 5 t : Vec Ideal S8x512 .f32) i = ((m ((c : Thread nD τ).loc main_arg5)) : S8x512.Idx → EReal) i := by
  unfold iblk
  rw [View.read_apply]
  show V m c main_arg5 _ = _
  rw [V_main_arg5]
  congr 1
  funext a
  apply Fin.ext
  show win0_5.index t a * S8x512.size a + 1 * (i a).val = (i a).val
  rw [(idx_rank2 t a).2.2.1]
  omega

/-- Window 6's block is its whole array. -/
theorem iblk6_apply (c : Dev nD) (t : Fin cfg0.N) (i : S8.Idx) :
    (iblk m c 6 t : Vec Ideal S8 .f32) i = ((m ((c : Thread nD τ).loc main_arg6)) : S8.Idx → EReal) i := by
  unfold iblk
  rw [View.read_apply]
  show V m c main_arg6 _ = _
  rw [V_main_arg6]
  congr 1
  funext a
  apply Fin.ext
  show win0_6.index t a * S8.size a + 1 * (i a).val = (i a).val
  rw [(idx_rank1 t a).2.1]
  omega

/-- Window 7's block is its whole array. -/
theorem iblk7_apply (c : Dev nD) (t : Fin cfg0.N) (i : S64x64.Idx) :
    (iblk m c 7 t : Vec Ideal S64x64 .f32) i = ((m ((c : Thread nD τ).loc main_arg7)) : S64x64.Idx → EReal) i := by
  unfold iblk
  rw [View.read_apply]
  show V m c main_arg7 _ = _
  rw [V_main_arg7]
  congr 1
  funext a
  apply Fin.ext
  show win0_7.index t a * S64x64.size a + 1 * (i a).val = (i a).val
  rw [(idx_rank2 t a).2.2.2.1]
  omega

/-- Window 8's block is its whole array. -/
theorem iblk8_apply (c : Dev nD) (t : Fin cfg0.N) (i : S64.Idx) :
    (iblk m c 8 t : Vec Ideal S64 .f32) i = ((m ((c : Thread nD τ).loc main_arg8)) : S64.Idx → EReal) i := by
  unfold iblk
  rw [View.read_apply]
  show V m c main_arg8 _ = _
  rw [V_main_arg8]
  congr 1
  funext a
  apply Fin.ext
  show win0_8.index t a * S64.size a + 1 * (i a).val = (i a).val
  rw [(idx_rank1 t a).2.2.1]
  omega

/-- Window 9's block is its whole array. -/
theorem iblk9_apply (c : Dev nD) (t : Fin cfg0.N) (i : S1x64.Idx) :
    (iblk m c 9 t : Vec Ideal S1x64 .f32) i = ((m ((c : Thread nD τ).loc main_arg9)) : S1x64.Idx → EReal) i := by
  unfold iblk
  rw [View.read_apply]
  show V m c main_arg9 _ = _
  rw [V_main_arg9]
  congr 1
  funext a
  apply Fin.ext
  show win0_9.index t a * S1x64.size a + 1 * (i a).val = (i a).val
  rw [(idx_rank2 t a).2.2.2.2.1]
  omega

/-- Window 10's block is its whole array. -/
theorem iblk10_apply (c : Dev nD) (t : Fin cfg0.N) (i : S1.Idx) :
    (iblk m c 10 t : Vec Ideal S1 .f32) i = ((m ((c : Thread nD τ).loc main_arg10)) : S1.Idx → EReal) i := by
  unfold iblk
  rw [View.read_apply]
  show V m c main_arg10 _ = _
  rw [V_main_arg10]
  congr 1
  funext a
  apply Fin.ext
  show win0_10.index t a * S1.size a + 1 * (i a).val = (i a).val
  rw [(idx_rank1 t a).2.2.2.1]
  omega

/-- Window 11's block is its whole array. -/
theorem iblk11_apply (c : Dev nD) (t : Fin cfg0.N) (i : S1x64.Idx) :
    (iblk m c 11 t : Vec Ideal S1x64 .f32) i = ((m ((c : Thread nD τ).loc main_arg11)) : S1x64.Idx → EReal) i := by
  unfold iblk
  rw [View.read_apply]
  show V m c main_arg11 _ = _
  rw [V_main_arg11]
  congr 1
  funext a
  apply Fin.ext
  show win0_11.index t a * S1x64.size a + 1 * (i a).val = (i a).val
  rw [(idx_rank2 t a).2.2.2.2.2.1]
  omega

/-- Window 12's block is its whole array. -/
theorem iblk12_apply (c : Dev nD) (t : Fin cfg0.N) (i : S1.Idx) :
    (iblk m c 12 t : Vec Ideal S1 .f32) i = ((m ((c : Thread nD τ).loc main_arg12)) : S1.Idx → EReal) i := by
  unfold iblk
  rw [View.read_apply]
  show V m c main_arg12 _ = _
  rw [V_main_arg12]
  congr 1
  funext a
  apply Fin.ext
  show win0_12.index t a * S1.size a + 1 * (i a).val = (i a).val
  rw [(idx_rank1 t a).2.2.2.2.1]
  omega

/-- Window 13's block is its whole array. -/
theorem iblk13_apply (c : Dev nD) (t : Fin cfg0.N) (i : S1x32.Idx) :
    (iblk m c 13 t : Vec Ideal S1x32 .f32) i = ((m ((c : Thread nD τ).loc main_arg13)) : S1x32.Idx → EReal) i := by
  unfold iblk
  rw [View.read_apply]
  show V m c main_arg13 _ = _
  rw [V_main_arg13]
  congr 1
  funext a
  apply Fin.ext
  show win0_13.index t a * S1x32.size a + 1 * (i a).val = (i a).val
  rw [(idx_rank2 t a).2.2.2.2.2.2.1]
  omega

/-- Window 14's block is its whole array. -/
theorem iblk14_apply (c : Dev nD) (t : Fin cfg0.N) (i : S1.Idx) :
    (iblk m c 14 t : Vec Ideal S1 .f32) i = ((m ((c : Thread nD τ).loc main_arg14)) : S1.Idx → EReal) i := by
  unfold iblk
  rw [View.read_apply]
  show V m c main_arg14 _ = _
  rw [V_main_arg14]
  congr 1
  funext a
  apply Fin.ext
  show win0_14.index t a * S1.size a + 1 * (i a).val = (i a).val
  rw [(idx_rank1 t a).2.2.2.2.2.1]
  omega

/-- Window 15's block is its whole array. -/
theorem iblk15_apply (c : Dev nD) (t : Fin cfg0.N) (i : S1x32.Idx) :
    (iblk m c 15 t : Vec Ideal S1x32 .f32) i = ((m ((c : Thread nD τ).loc main_arg15)) : S1x32.Idx → EReal) i := by
  unfold iblk
  rw [View.read_apply]
  show V m c main_arg15 _ = _
  rw [V_main_arg15]
  congr 1
  funext a
  apply Fin.ext
  show win0_15.index t a * S1x32.size a + 1 * (i a).val = (i a).val
  rw [(idx_rank2 t a).2.2.2.2.2.2.2.1]
  omega

/-- Window 16's block is its whole array. -/
theorem iblk16_apply (c : Dev nD) (t : Fin cfg0.N) (i : S1.Idx) :
    (iblk m c 16 t : Vec Ideal S1 .f32) i = ((m ((c : Thread nD τ).loc main_arg16)) : S1.Idx → EReal) i := by
  unfold iblk
  rw [View.read_apply]
  show V m c main_arg16 _ = _
  rw [V_main_arg16]
  congr 1
  funext a
  apply Fin.ext
  show win0_16.index t a * S1.size a + 1 * (i a).val = (i a).val
  rw [(idx_rank1 t a).2.2.2.2.2.2.1]
  omega

/-- Window 19's block is its whole array. -/
theorem iblk19_apply (c : Dev nD) (t : Fin cfg0.N) (i : S4.Idx) :
    (iblk m c 19 t : Vec Ideal S4 .f32) i = ((m ((c : Thread nD τ).loc main_arg19)) : S4.Idx → EReal) i := by
  unfold iblk
  rw [View.read_apply]
  show V m c main_arg19 _ = _
  rw [V_main_arg19]
  congr 1
  funext a
  apply Fin.ext
  show win0_19.index t a * S4.size a + 1 * (i a).val = (i a).val
  rw [(idx_rank1 t a).2.2.2.2.2.2.2]
  omega

/-- The decay gate's block is the sigmoid of the decays. -/
theorem iblk17_apply (c : Dev nD) (t : Fin cfg0.N) (i : S4x8x64.Idx) :
    (iblk m c 17 t : Vec Ideal S4x8x64 .f32) i = Ideal.logistic (((m ((c : Thread nD τ).loc main_arg17)) : S4x8x64.Idx → EReal) i) := by
  rw [← V_decay_apply m c i]
  unfold iblk
  rw [View.read_apply]
  show V m c main_v6 _ = _
  congr 1
  funext a
  apply Fin.ext
  show win0_17.index t a * S4x8x64.size a + 1 * (i a).val = (i a).val
  rw [idx_rank3 t a]
  omega

/-- The regrouped halting weights' block at row `l·8 + r`. -/
theorem iblk18_apply (c : Dev nD) (t : Fin cfg0.N) (l : Fin 4) (r : Fin 8) (f : Fin 64) :
    (iblk m c 18 t : Vec Ideal S32x64 .f32) (ix2 (flatSlot l r) f) = ((m ((c : Thread nD τ).loc main_arg18)) : S4x8x64.Idx → EReal) (ix3 l r f) := by
  rw [← V_haltw_apply m c l r f]
  unfold iblk
  rw [View.read_apply]
  show V m c main_v7 _ = _
  congr 1
  funext a
  apply Fin.ext
  show win0_18.index t a * S32x64.size a + 1 * ((ix2 (flatSlot l r) f : S32x64.Idx) a).val = ((ix2 (flatSlot l r) f : S32x64.Idx) a).val
  rw [(idx_rank2 t a).2.2.2.2.2.2.2.2]
  omega

/-! ## What a point writes back, and the array -/

/-- The result array of the argument arrays as launched. -/
abbrev resultOf (c : Dev nD) : S65536x8.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- The output block of point `t` at `(p, o)` is the result at row `1024·t + p`. -/
theorem out_block_apply (c : Dev nD) (t : Fin cfg0.N) (p : Fin 1024) (o : Fin 8) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 p o)
      = resultOf m c (ix2 (rowOf t p) o) := by
  show _ = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 (rowOf t p) o)
  rw [result_apply, ← outSplit_eq_outWhole]
  exact KernelRows.block_apply _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p
    (fun k => iblk0_apply m c t p k) (fun l r f => iblk1_apply m c t p l r f)
    (fun j k => iblk2_apply m c t (ix2 j k)) (fun j => iblk3_apply m c t (ix1 j))
    (fun f j => iblk4_apply m c t (ix2 f j))
    (fun o k => iblk5_apply m c t (ix2 o k)) (fun o => iblk6_apply m c t (ix1 o))
    (fun n f => iblk7_apply m c t (ix2 n f)) (fun n => iblk8_apply m c t (ix1 n))
    (fun n => iblk9_apply m c t (ix2 (0 : Fin 1) n)) (iblk10_apply m c t (ix1 (0 : Fin 1)))
    (fun n => iblk11_apply m c t (ix2 (0 : Fin 1) n)) (iblk12_apply m c t (ix1 (0 : Fin 1)))
    (fun j => iblk13_apply m c t (ix2 (0 : Fin 1) j)) (iblk14_apply m c t (ix1 (0 : Fin 1)))
    (fun j => iblk15_apply m c t (ix2 (0 : Fin 1) j)) (iblk16_apply m c t (ix1 (0 : Fin 1)))
    (fun l r f => iblk17_apply m c t (ix3 l r f))
    (fun l r f => iblk18_apply m c t l r f)
    (fun l => iblk19_apply m c t (ix1 l)) o

/-- WHAT POINT `t` WRITES BACK is tile `t` of the result array. -/
theorem flushed_eq (c : Dev nD) (t : Fin cfg0.N) :
    (dats m 0 c).flushed 20 t = ((cfg0.win 20).blk t).view.read (Elt Ideal) (resultOf m c) := by
  obtain ⟨-, -, -, -, -, -, e0, e1⟩ := idx_stream t
  rw [flushed20]
  funext j
  show out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) j
      = resultOf m c (((cfg0.win 20).blk t).view.emb j)
  obtain ⟨p, o, rfl⟩ : ∃ (p : Fin 1024) (o : Fin 8), j = ix2 p o := ⟨j 0, j 1, eq_ix2 j⟩
  rw [out_block_apply]
  congr 1
  funext a
  apply Fin.ext
  match a with
  | ⟨0, _⟩ => show 1024 * t.val + p.val = win0_20.index t (0 : Fin 2) * 1024 + 1 * p.val; rw [e0]; omega
  | ⟨1, _⟩ => show o.val = win0_20.index t (1 : Fin 2) * 8 + 1 * o.val; rw [e1]; omega

/-- Every point writes its tile back. -/
theorem flush_all (t : Fin cfg0.N) : (cfg0.win 20).flush t = true := flush0_20 t

/-- The 64 tiles cover the output array: row `b` lies in tile `b / 1024`. -/
theorem cover (i : S65536x8.Idx) : ∃ t : Fin cfg0.N, (cfg0.win 20).flush t = true ∧ i ∈ ((cfg0.win 20).blk t).view.set := by
  have hi0 : (i 0).val < 65536 := (i 0).isLt
  have hi1 : (i 1).val < 8 := (i 1).isLt
  let t : Fin cfg0.N := ⟨(i 0).val / 1024, by rw [show cfg0.N = 64 from N_0]; omega⟩
  obtain ⟨-, -, -, -, -, -, e0, e1⟩ := idx_stream t
  refine ⟨t, flush_all t, ?_⟩
  show i ∈ ((View.whole main_v8).slice (win0_20.rect t)).set
  rw [View.set_slice_whole, Rect.mem_set_unit]
  intro a
  match a with
  | ⟨0, _⟩ =>
    show win0_20.index t (0 : Fin 2) * 1024 ≤ (i 0).val ∧ (i 0).val < win0_20.index t (0 : Fin 2) * 1024 + 1024
    rw [e0]; show (i 0).val / 1024 * 1024 ≤ (i 0).val ∧ (i 0).val < (i 0).val / 1024 * 1024 + 1024; omega
  | ⟨1, _⟩ =>
    show win0_20.index t (1 : Fin 2) * 8 ≤ (i 1).val ∧ (i 1).val < win0_20.index t (1 : Fin 2) * 8 + 8
    rw [e1]; omega

/-- THE OUTPUT ARRAY after the run is the result array. -/
theorem final (c : Dev nD) : (dats m 0 c).arrAt 20 cfg0.N = resultOf m c :=
  (dats m 0 c).arrAt_eq_of_cover 20 (resultOf m c) (fun t _ => flushed_eq m c t) (cover)

/-- The kernel's run: the output array ends at the result array, the arguments unchanged. -/
theorem run : θ_run defs (onTc (τ := τ) (main (F := Ideal))) ⟨m, fun _ => 0, ρ⟩ fun r => ∀ c : Dev nD,
      r.2.mem ((c : Thread nD τ).loc main_v8) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (final m c), (h c).2⟩) (run_blocks m ρ)

end Cert.Memory.Blocks

end
-- ==== Proof.RefStagesA.lean ====
/-
  The reference's first stages read at one batch row `b`, on the extended reals: the latent `s1 = x·W_bitᵀ + b_bit`
  (a host product with the transposed weight, plus the broadcast bias), the surprise — two heads of `s1`, each passed
  through `1 / (1 + exp (-·))`, which is the sigmoid —, and the working state `s2 = tanh (s1·W_bridgeᵀ)`.
-/
import proofs.«136379_j32899449488193_1_alg».proof.Proof.Gen.ReferenceIdeal.Read
import proofs.«136379_j32899449488193_1_alg».proof.Proof.Spec
import proofs.«136379_j32899449488193_1_alg».proof.Proof.LibRowDims
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Memory.RefStages

open Cert.ReferenceIdeal Cert.ReferenceIdeal.Read Idealize.ShloMosaic Idealize.ShloMosaic.ValueIdx Cert.Memory

variable (W : Weights) (x : Fin 8 → EReal)

/-- `s1` at row `b`, coordinate `j`. -/
theorem s1_apply (x0 : (⟨S65536x8, .f32⟩ : BufTy).Contents (Elt Ideal)) (x2 : (⟨S32x8, .f32⟩ : BufTy).Contents (Elt Ideal)) (x3 : (⟨S32, .f32⟩ : BufTy).Contents (Elt Ideal)) (b : Fin 65536)
    (hx : ∀ k : Fin 8, x0 (ix2 b k) = x k) (hWbit : ∀ (j : Fin 32) (k : Fin 8), x2 (ix2 j k) = W.Wbit j k)
    (hbbit : ∀ j : Fin 32, x3 (ix1 j) = W.bbit j) (j : Fin 32) :
    val_main_v4 (F := Ideal) x0 x2 x3 (ix2 b j) = s1 W x j := by
  rw [val_main_v4_apply, val_main_v1_apply, val_main_v3_apply, val_main_v2_apply]
  unfold s1
  show (∑ k : Fin 8, _) + _ = _
  congr 1
  · refine Finset.sum_congr rfl fun k _ => ?_
    rw [val_main_v0_apply]
    have e1 : lidx_main_v1 (ix2 b j) k = ix2 b k := funext fun a => Fin.ext (by match a with | ⟨0, _⟩ => rfl | ⟨1, _⟩ => rfl)
    have e2 : idx_main_v0 (ridx_main_v1 (ix2 b j) k) = ix2 j k := funext fun a => Fin.ext (by match a with | ⟨0, _⟩ => rfl | ⟨1, _⟩ => rfl)
    rw [e1, e2, hx, hWbit]
  · have e3 : idx_main_v2 (idx_main_v3 (ix2 b j)) = ix1 j := funext fun a => Fin.ext (by match a with | ⟨0, _⟩ => rfl)
    rw [e3, hbbit]

/-- The sigmoid as the reference spells it: `1 / (1 + exp (-v))`, both ones being the pattern of `1.0`, is `Ideal.logistic v`. -/
private theorem sigmoid_spelt (v : EReal) :
    Ideal.div (Ideal.ofBits .f32 0x3F800000#32) (Ideal.ofBits .f32 0x3F800000#32 + Ideal.exp (-v)) = Ideal.logistic v := by
  rw [Ideal.ofBits_one_f32]
  rfl

/-- The surprise at row `b`. -/
theorem surprise_apply (x0 : (⟨S65536x8, .f32⟩ : BufTy).Contents (Elt Ideal)) (x2 : (⟨S32x8, .f32⟩ : BufTy).Contents (Elt Ideal)) (x3 : (⟨S32, .f32⟩ : BufTy).Contents (Elt Ideal))
    (x13 : (⟨S1x32, .f32⟩ : BufTy).Contents (Elt Ideal)) (x14 : (⟨S1, .f32⟩ : BufTy).Contents (Elt Ideal)) (x15 : (⟨S1x32, .f32⟩ : BufTy).Contents (Elt Ideal)) (x16 : (⟨S1, .f32⟩ : BufTy).Contents (Elt Ideal)) (b : Fin 65536)
    (hx : ∀ k : Fin 8, x0 (ix2 b k) = x k) (hWbit : ∀ (j : Fin 32) (k : Fin 8), x2 (ix2 j k) = W.Wbit j k)
    (hbbit : ∀ j : Fin 32, x3 (ix1 j) = W.bbit j)
    (hWsur : ∀ j : Fin 32, x13 (ix2 (0 : Fin 1) j) = W.Wsur j) (hbsur : x14 (ix1 (0 : Fin 1)) = W.bsur)
    (hWgate : ∀ j : Fin 32, x15 (ix2 (0 : Fin 1) j) = W.Wgate j) (hbgate : x16 (ix1 (0 : Fin 1)) = W.bgate) :
    val_main_v27 (F := Ideal) x0 x2 x3 x13 x14 x15 x16 (ix2 b (0 : Fin 1)) = surprise W x := by
  rw [val_main_v27_apply]
  unfold surprise
  show _ * _ = _
  congr 1
  · -- the first head: the product with `W_sur`, plus `b_sur`, through the sigmoid
    rw [val_main_v15_apply, val_main_v14_apply, val_main_cst_0_apply, val_main_v13_apply, val_main_v12_apply,
      val_main_cst_apply, val_main_v11_apply, val_main_v10_apply, val_main_v9_apply]
    refine (sigmoid_spelt _).trans ?_
    congr 1
    show _ + _ = _
    congr 1
    · rw [val_main_v6_apply]
      refine Finset.sum_congr rfl fun k _ => ?_
      have e1 : lidx_main_v6 (ix2 b (0 : Fin 1)) k = ix2 b k := funext fun a => Fin.ext (by match a with | ⟨0, _⟩ => rfl | ⟨1, _⟩ => rfl)
      have e2 : idx_main_v5 (ridx_main_v6 (ix2 b (0 : Fin 1)) k) = ix2 (0 : Fin 1) k := funext fun a => Fin.ext (by match a with | ⟨0, _⟩ => rfl | ⟨1, _⟩ => rfl)
      rw [e1, s1_apply W x x0 x2 x3 b hx hWbit hbbit k, val_main_v5_apply, e2, hWsur]
    · rw [val_main_v8_apply, val_main_v7_apply]
      have e3 : idx_main_v7 (idx_main_v8 (ix2 b (0 : Fin 1))) = ix1 (0 : Fin 1) := funext fun a => Fin.ext (by match a with | ⟨0, _⟩ => rfl)
      rw [e3, hbsur]
  · -- the second head: the product with `W_gate`, plus `b_gate`, through the sigmoid
    rw [val_main_v26_apply, val_main_v25_apply, val_main_cst_2_apply, val_main_v24_apply, val_main_v23_apply,
      val_main_cst_1_apply, val_main_v22_apply, val_main_v21_apply, val_main_v20_apply]
    refine (sigmoid_spelt _).trans ?_
    congr 1
    show _ + _ = _
    congr 1
    · rw [val_main_v17_apply]
      refine Finset.sum_congr rfl fun k _ => ?_
      have e1 : lidx_main_v17 (ix2 b (0 : Fin 1)) k = ix2 b k := funext fun a => Fin.ext (by match a with | ⟨0, _⟩ => rfl | ⟨1, _⟩ => rfl)
      have e2 : idx_main_v16 (ridx_main_v17 (ix2 b (0 : Fin 1)) k) = ix2 (0 : Fin 1) k := funext fun a => Fin.ext (by match a with | ⟨0, _⟩ => rfl | ⟨1, _⟩ => rfl)
      rw [e1, s1_apply W x x0 x2 x3 b hx hWbit hbbit k, val_main_v16_apply, e2, hWgate]
    · rw [val_main_v19_apply, val_main_v18_apply]
      have e3 : idx_main_v18 (idx_main_v19 (ix2 b (0 : Fin 1))) = ix1 (0 : Fin 1) := funext fun a => Fin.ext (by match a with | ⟨0, _⟩ => rfl)
      rw [e3, hbgate]

/-- `s2` at row `b`, feature `f`. -/
theorem s2_apply (x0 : (⟨S65536x8, .f32⟩ : BufTy).Contents (Elt Ideal)) (x2 : (⟨S32x8, .f32⟩ : BufTy).Contents (Elt Ideal)) (x3 : (⟨S32, .f32⟩ : BufTy).Contents (Elt Ideal)) (x4 : (⟨S64x32, .f32⟩ : BufTy).Contents (Elt Ideal)) (b : Fin 65536)
    (hx : ∀ k : Fin 8, x0 (ix2 b k) = x k) (hWbit : ∀ (j : Fin 32) (k : Fin 8), x2 (ix2 j k) = W.Wbit j k)
    (hbbit : ∀ j : Fin 32, x3 (ix1 j) = W.bbit j)
    (hWbridge : ∀ (f : Fin 64) (j : Fin 32), x4 (ix2 f j) = W.Wbridge f j) (f : Fin 64) :
    val_main_v30 (F := Ideal) x0 x2 x3 x4 (ix2 b f) = s2 W x f := by
  rw [val_main_v30_apply, val_main_v29_apply]
  unfold s2
  show Ideal.tanh _ = Ideal.tanh _
  congr 1
  refine Finset.sum_congr rfl fun k _ => ?_
  have e1 : lidx_main_v29 (ix2 b f) k = ix2 b k := funext fun a => Fin.ext (by match a with | ⟨0, _⟩ => rfl | ⟨1, _⟩ => rfl)
  have e2 : idx_main_v28 (ridx_main_v29 (ix2 b f) k) = ix2 f k := funext fun a => Fin.ext (by match a with | ⟨0, _⟩ => rfl | ⟨1, _⟩ => rfl)
  rw [e1, s1_apply W x x0 x2 x3 b hx hWbit hbbit k, val_main_v28_apply, e2, hWbridge]

end Cert.Memory.RefStages

end
-- ==== Proof.RefStagesB.lean ====
/-
  The reference's governor and gates read at one batch row `b`: `hg = max (s2·W_shᵀ + b_sh) 0`, its two heads `eng`
  and `imp` (each `1 / (1 + exp (-·))` of a product with one weight row plus a bias), the halting gate — the contraction of
  `s2` with `halt_w` over the feature axis, plus the layer's bias, through the same sigmoid —, and the gate
  `halt · (eng · imp)`. The working state `s2` enters as a hypothesis on the stage that computes it.
-/
import proofs.«136379_j32899449488193_1_alg».proof.Proof.Gen.ReferenceIdeal.Read
import proofs.«136379_j32899449488193_1_alg».proof.Proof.Spec
import proofs.«136379_j32899449488193_1_alg».proof.Proof.LibRowDims
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Memory.RefStages

open Cert.ReferenceIdeal Cert.ReferenceIdeal.Read Idealize.ShloMosaic Idealize.ShloMosaic.ValueIdx Cert.Memory

variable (W : Weights) (x : Fin 8 → EReal)

/-- The reference's spelling of the sigmoid, `1 / (1 + exp (-v))` over the float pattern of one, is `Ideal.logistic v`. -/
private theorem logistic_of_ones (v : EReal) :
    Ideal.div (Ideal.ofBits .f32 0x3F800000#32) (Ideal.ofBits .f32 0x3F800000#32 + Ideal.exp (-v)) = Ideal.logistic v := by
  rw [Ideal.ofBits_one_f32]
  rfl

/-- `hg` at row `b`, unit `n`. -/
theorem hg_apply (x0 : (⟨S65536x8, .f32⟩ : BufTy).Contents (Elt Ideal)) (x2 : (⟨S32x8, .f32⟩ : BufTy).Contents (Elt Ideal)) (x3 : (⟨S32, .f32⟩ : BufTy).Contents (Elt Ideal)) (x4 : (⟨S64x32, .f32⟩ : BufTy).Contents (Elt Ideal))
    (x7 : (⟨S64x64, .f32⟩ : BufTy).Contents (Elt Ideal)) (x8 : (⟨S64, .f32⟩ : BufTy).Contents (Elt Ideal)) (b : Fin 65536)
    (hs2 : ∀ f : Fin 64, val_main_v30 (F := Ideal) x0 x2 x3 x4 (ix2 b f) = s2 W x f)
    (hWsh : ∀ n f : Fin 64, x7 (ix2 n f) = W.Wsh n f) (hbsh : ∀ n : Fin 64, x8 (ix1 n) = W.bsh n) (n : Fin 64) :
    val_main_v36 (F := Ideal) x0 x2 x3 x4 x7 x8 (ix2 b n) = hg W x n := by
  rw [val_main_v36_apply, val_main_v35_apply, val_main_v32_apply, val_main_v34_apply, val_main_v33_apply,
    val_main_call0_v0_apply, val_main_call0_cst_apply]
  unfold hg
  show max ((∑ k : Fin 64, _) + _) _ = _
  congr 1
  congr 1
  · refine Finset.sum_congr rfl fun k _ => ?_
    rw [val_main_v31_apply]
    have e1 : lidx_main_v32 (ix2 b n) k = ix2 b k := funext fun a => Fin.ext (by match a with | ⟨0, _⟩ => rfl | ⟨1, _⟩ => rfl)
    have e2 : idx_main_v31 (ridx_main_v32 (ix2 b n) k) = ix2 n k := funext fun a => Fin.ext (by match a with | ⟨0, _⟩ => rfl | ⟨1, _⟩ => rfl)
    rw [e1, e2, hs2, hWsh]
  · have e3 : idx_main_v33 (idx_main_v34 (ix2 b n)) = ix1 n := funext fun a => Fin.ext (by match a with | ⟨0, _⟩ => rfl)
    rw [e3, hbsh]

/-- `eng` at row `b`. -/
theorem eng_apply (x0 : (⟨S65536x8, .f32⟩ : BufTy).Contents (Elt Ideal)) (x2 : (⟨S32x8, .f32⟩ : BufTy).Contents (Elt Ideal)) (x3 : (⟨S32, .f32⟩ : BufTy).Contents (Elt Ideal)) (x4 : (⟨S64x32, .f32⟩ : BufTy).Contents (Elt Ideal))
    (x7 : (⟨S64x64, .f32⟩ : BufTy).Contents (Elt Ideal)) (x8 : (⟨S64, .f32⟩ : BufTy).Contents (Elt Ideal)) (x9 : (⟨S1x64, .f32⟩ : BufTy).Contents (Elt Ideal)) (x10 : (⟨S1, .f32⟩ : BufTy).Contents (Elt Ideal)) (b : Fin 65536)
    (hhg : ∀ n : Fin 64, val_main_v36 (F := Ideal) x0 x2 x3 x4 x7 x8 (ix2 b n) = hg W x n)
    (hWeng : ∀ n : Fin 64, x9 (ix2 (0 : Fin 1) n) = W.Weng n) (hbeng : x10 (ix1 (0 : Fin 1)) = W.beng) :
    val_main_v47 (F := Ideal) x0 x2 x3 x4 x7 x8 x9 x10 (ix2 b (0 : Fin 1)) = eng W x := by
  rw [val_main_v47_apply, val_main_v46_apply, val_main_cst_4_apply, val_main_v45_apply, val_main_v44_apply,
    val_main_cst_3_apply, val_main_v43_apply, val_main_v42_apply, val_main_v41_apply, val_main_v38_apply,
    val_main_v40_apply, val_main_v39_apply]
  unfold eng
  refine (logistic_of_ones _).trans ?_
  congr 1
  show (∑ k : Fin 64, _) + _ = _
  congr 1
  · refine Finset.sum_congr rfl fun k _ => ?_
    rw [val_main_v37_apply]
    have e1 : lidx_main_v38 (ix2 b (0 : Fin 1)) k = ix2 b k := funext fun a => Fin.ext (by match a with | ⟨0, _⟩ => rfl | ⟨1, _⟩ => rfl)
    have e2 : idx_main_v37 (ridx_main_v38 (ix2 b (0 : Fin 1)) k) = ix2 (0 : Fin 1) k := funext fun a => Fin.ext (by match a with | ⟨0, _⟩ => rfl | ⟨1, _⟩ => rfl)
    rw [e1, e2, hhg, hWeng]
  · have e3 : idx_main_v39 (idx_main_v40 (ix2 b (0 : Fin 1))) = ix1 (0 : Fin 1) := funext fun a => Fin.ext (by match a with | ⟨0, _⟩ => rfl)
    rw [e3, hbeng]

/-- `imp` at row `b`. -/
theorem imp_apply (x0 : (⟨S65536x8, .f32⟩ : BufTy).Contents (Elt Ideal)) (x2 : (⟨S32x8, .f32⟩ : BufTy).Contents (Elt Ideal)) (x3 : (⟨S32, .f32⟩ : BufTy).Contents (Elt Ideal)) (x4 : (⟨S64x32, .f32⟩ : BufTy).Contents (Elt Ideal))
    (x7 : (⟨S64x64, .f32⟩ : BufTy).Contents (Elt Ideal)) (x8 : (⟨S64, .f32⟩ : BufTy).Contents (Elt Ideal)) (x11 : (⟨S1x64, .f32⟩ : BufTy).Contents (Elt Ideal)) (x12 : (⟨S1, .f32⟩ : BufTy).Contents (Elt Ideal)) (b : Fin 65536)
    (hhg : ∀ n : Fin 64, val_main_v36 (F := Ideal) x0 x2 x3 x4 x7 x8 (ix2 b n) = hg W x n)
    (hWimp : ∀ n : Fin 64, x11 (ix2 (0 : Fin 1) n) = W.Wimp n) (hbimp : x12 (ix1 (0 : Fin 1)) = W.bimp) :
    val_main_v58 (F := Ideal) x0 x2 x3 x4 x7 x8 x11 x12 (ix2 b (0 : Fin 1)) = imp W x := by
  rw [val_main_v58_apply, val_main_v57_apply, val_main_cst_6_apply, val_main_v56_apply, val_main_v55_apply,
    val_main_cst_5_apply, val_main_v54_apply, val_main_v53_apply, val_main_v52_apply, val_main_v49_apply,
    val_main_v51_apply, val_main_v50_apply]
  unfold imp
  refine (logistic_of_ones _).trans ?_
  congr 1
  show (∑ k : Fin 64, _) + _ = _
  congr 1
  · refine Finset.sum_congr rfl fun k _ => ?_
    rw [val_main_v48_apply]
    have e1 : lidx_main_v49 (ix2 b (0 : Fin 1)) k = ix2 b k := funext fun a => Fin.ext (by match a with | ⟨0, _⟩ => rfl | ⟨1, _⟩ => rfl)
    have e2 : idx_main_v48 (ridx_main_v49 (ix2 b (0 : Fin 1)) k) = ix2 (0 : Fin 1) k := funext fun a => Fin.ext (by match a with | ⟨0, _⟩ => rfl | ⟨1, _⟩ => rfl)
    rw [e1, e2, hhg, hWimp]
  · have e3 : idx_main_v50 (idx_main_v51 (ix2 b (0 : Fin 1))) = ix1 (0 : Fin 1) := funext fun a => Fin.ext (by match a with | ⟨0, _⟩ => rfl)
    rw [e3, hbimp]

/-- The halting gate at row `b`, layer `l`, slot `r`. -/
theorem halt_apply (x0 : (⟨S65536x8, .f32⟩ : BufTy).Contents (Elt Ideal)) (x2 : (⟨S32x8, .f32⟩ : BufTy).Contents (Elt Ideal)) (x3 : (⟨S32, .f32⟩ : BufTy).Contents (Elt Ideal)) (x4 : (⟨S64x32, .f32⟩ : BufTy).Contents (Elt Ideal)) (x18 : (⟨S4x8x64, .f32⟩ : BufTy).Contents (Elt Ideal)) (x19 : (⟨S4, .f32⟩ : BufTy).Contents (Elt Ideal)) (b : Fin 65536)
    (hs2 : ∀ f : Fin 64, val_main_v30 (F := Ideal) x0 x2 x3 x4 (ix2 b f) = s2 W x f)
    (hhaltw : ∀ (l : Fin 4) (r : Fin 8) (f : Fin 64), x18 (ix3 l r f) = W.haltw l r f)
    (hhaltb : ∀ l : Fin 4, x19 (ix1 l) = W.haltb l) (l : Fin 4) (r : Fin 8) :
    val_main_v69 (F := Ideal) x0 x2 x3 x4 x18 x19 (ix3 b l r) = halt W x l r := by
  rw [val_main_v69_apply, val_main_v68_apply, val_main_cst_8_apply, val_main_v67_apply, val_main_v66_apply,
    val_main_cst_7_apply, val_main_v65_apply, val_main_v64_apply, val_main_v63_apply, val_main_v59_apply,
    val_main_v62_apply, val_main_v61_apply, val_main_v60_apply]
  unfold halt
  refine (logistic_of_ones _).trans ?_
  congr 1
  show (∑ k : Fin 64, _) + _ = _
  congr 1
  · refine Finset.sum_congr rfl fun k _ => ?_
    have e1 : lidx_main_v59 (ix3 b l r) k = ix2 b k := funext fun a => Fin.ext (by match a with | ⟨0, _⟩ => rfl | ⟨1, _⟩ => rfl)
    have e2 : ridx_main_v59 (ix3 b l r) k = ix3 l r k := funext fun a => Fin.ext (by match a with | ⟨0, _⟩ => rfl | ⟨1, _⟩ => rfl | ⟨2, _⟩ => rfl)
    rw [e1, e2, hs2, hhaltw]
  · have e3 : idx_main_v60 (idx_main_v61 (idx_main_v62 (ix3 b l r))) = ix1 l := funext fun a => Fin.ext (by match a with | ⟨0, _⟩ => rfl)
    rw [e3, hhaltb]

/-- The gate at row `b`, layer `l`, slot `r`. -/
theorem gate_apply (x0 : (⟨S65536x8, .f32⟩ : BufTy).Contents (Elt Ideal)) (x2 : (⟨S32x8, .f32⟩ : BufTy).Contents (Elt Ideal)) (x3 : (⟨S32, .f32⟩ : BufTy).Contents (Elt Ideal)) (x4 : (⟨S64x32, .f32⟩ : BufTy).Contents (Elt Ideal))
    (x7 : (⟨S64x64, .f32⟩ : BufTy).Contents (Elt Ideal)) (x8 : (⟨S64, .f32⟩ : BufTy).Contents (Elt Ideal)) (x9 : (⟨S1x64, .f32⟩ : BufTy).Contents (Elt Ideal)) (x10 : (⟨S1, .f32⟩ : BufTy).Contents (Elt Ideal)) (x11 : (⟨S1x64, .f32⟩ : BufTy).Contents (Elt Ideal)) (x12 : (⟨S1, .f32⟩ : BufTy).Contents (Elt Ideal))
    (x18 : (⟨S4x8x64, .f32⟩ : BufTy).Contents (Elt Ideal)) (x19 : (⟨S4, .f32⟩ : BufTy).Contents (Elt Ideal)) (b : Fin 65536)
    (heng : val_main_v47 (F := Ideal) x0 x2 x3 x4 x7 x8 x9 x10 (ix2 b (0 : Fin 1)) = eng W x)
    (himp : val_main_v58 (F := Ideal) x0 x2 x3 x4 x7 x8 x11 x12 (ix2 b (0 : Fin 1)) = imp W x)
    (hhalt : ∀ (l : Fin 4) (r : Fin 8), val_main_v69 (F := Ideal) x0 x2 x3 x4 x18 x19 (ix3 b l r) = halt W x l r)
    (l : Fin 4) (r : Fin 8) :
    val_main_v73 (F := Ideal) x0 x2 x3 x4 x7 x8 x9 x10 x11 x12 x18 x19 (ix3 b l r) = gate W x l r := by
  rw [val_main_v73_apply, val_main_v72_apply, val_main_v71_apply, val_main_v70_apply]
  have e1 : idx_main_v71 (idx_main_v72 (ix3 b l r)) = ix2 b (0 : Fin 1) := funext fun a => Fin.ext (by match a with | ⟨0, _⟩ => rfl | ⟨1, _⟩ => rfl)
  rw [e1, hhalt, heng, himp]
  rfl

end Cert.Memory.RefStages

end
-- ==== Proof.RefStagesC.lean ====
/-
  The reference's last stages read at one batch row `b`: the decay gate `1 / (1 + exp (-decays))`, which is the sigmoid of
  the decays; the slab regrouped from `[.., 16, 4]` to `[.., 64]`; the write `surprise · s2` broadcast over layers and
  slots; the updated slab `H·dg + gate·write`; its sum over the layer axis from the zero pattern, divided by four;
  the flattening of (slot, feature) into 512 positions; the readout `·W_readᵀ + b_read`. The surprise, the working
  state and the gate enter as hypotheses on the stages that compute them.
-/
import proofs.«136379_j32899449488193_1_alg».proof.Proof.Gen.ReferenceIdeal.Read
import proofs.«136379_j32899449488193_1_alg».proof.Proof.Spec
import proofs.«136379_j32899449488193_1_alg».proof.Proof.LibRowDims
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Memory.RefStages

open Cert.ReferenceIdeal Cert.ReferenceIdeal.Read Idealize.ShloMosaic Idealize.ShloMosaic.ValueIdx Cert.Memory

variable (W : Weights) (x : Fin 8 → EReal)

variable (H : Fin 4 → Fin 8 → Fin 64 → EReal)

/-- The decay gate at (layer, slot, feature) is the sigmoid of the decay there. -/
theorem dg_apply (x17 : (⟨S4x8x64, .f32⟩ : BufTy).Contents (Elt Ideal)) (l : Fin 4) (r : Fin 8) (f : Fin 64) :
    val_main_v79 (F := Ideal) x17 (ix3 l r f) = Ideal.logistic (x17 (ix3 l r f)) := by
  rw [val_main_v79_apply, val_main_v78_apply, val_main_v77_apply, val_main_v76_apply, val_main_v75_apply,
    val_main_v74_apply]
  show Ideal.div (Ideal.ofBits .f32 0x3F800000#32) (Ideal.ofBits .f32 0x3F800000#32 + Ideal.exp (-(x17 (ix3 l r f)))) = _
  rw [Ideal.ofBits_one_f32]
  rfl

/-- The write at row `b`, feature `f`: the surprise, broadcast along the features, times the working state. -/
theorem write_apply (x0 : (⟨S65536x8, .f32⟩ : BufTy).Contents (Elt Ideal)) (x2 : (⟨S32x8, .f32⟩ : BufTy).Contents (Elt Ideal)) (x3 : (⟨S32, .f32⟩ : BufTy).Contents (Elt Ideal)) (x4 : (⟨S64x32, .f32⟩ : BufTy).Contents (Elt Ideal))
    (x13 : (⟨S1x32, .f32⟩ : BufTy).Contents (Elt Ideal)) (x14 : (⟨S1, .f32⟩ : BufTy).Contents (Elt Ideal)) (x15 : (⟨S1x32, .f32⟩ : BufTy).Contents (Elt Ideal)) (x16 : (⟨S1, .f32⟩ : BufTy).Contents (Elt Ideal)) (b : Fin 65536)
    (hsur : val_main_v27 (F := Ideal) x0 x2 x3 x13 x14 x15 x16 (ix2 b (0 : Fin 1)) = surprise W x)
    (hs2 : ∀ f : Fin 64, val_main_v30 (F := Ideal) x0 x2 x3 x4 (ix2 b f) = s2 W x f) (f : Fin 64) :
    val_main_v82 (F := Ideal) x0 x2 x3 x4 x13 x14 x15 x16 (ix2 b f) = write W x f := by
  rw [val_main_v82_apply, val_main_v81_apply]
  have e : idx_main_v81 (ix2 b f) = ix2 b (0 : Fin 1) :=
    funext fun a => Fin.ext (by match a with | ⟨0, _⟩ => rfl | ⟨1, _⟩ => rfl)
  rw [e, hsur, hs2]
  rfl

/-- The regrouped slab `[.., 16, 4] → [.., 64]` reads feature `f = (f / 4)·4 + f % 4` at `(f / 4, f % 4)`. -/
theorem idx_v80_eq (b : Fin 65536) (l : Fin 4) (r : Fin 8) (f : Fin 64) :
    idx_main_v80 (ix4 b l r f) = ix5 b l r (featHi f) (featLo f) := by
  have hb := b.isLt; have hl := l.isLt; have hr := r.isLt; have hf := f.isLt
  funext a
  apply Fin.ext
  match a with
  | ⟨0, _⟩ => show (((b.val * 4 + l.val) * 8 + r.val) * 64 + f.val) / 2048 = b.val; omega
  | ⟨1, _⟩ => show (((b.val * 4 + l.val) * 8 + r.val) * 64 + f.val) / 512 % 4 = l.val; omega
  | ⟨2, _⟩ => show (((b.val * 4 + l.val) * 8 + r.val) * 64 + f.val) / 64 % 8 = r.val; omega
  | ⟨3, _⟩ => show (((b.val * 4 + l.val) * 8 + r.val) * 64 + f.val) / 4 % 16 = f.val / 4; omega
  | ⟨4, _⟩ => show (((b.val * 4 + l.val) * 8 + r.val) * 64 + f.val) % 4 = f.val % 4; omega

/-- The updated slab at `(b, l, r, f)`: the decayed old value plus the gated write. -/
theorem slab_apply (x0 : (⟨S65536x8, .f32⟩ : BufTy).Contents (Elt Ideal)) (x1 : (⟨S65536x4x8x16x4, .f32⟩ : BufTy).Contents (Elt Ideal)) (x2 : (⟨S32x8, .f32⟩ : BufTy).Contents (Elt Ideal)) (x3 : (⟨S32, .f32⟩ : BufTy).Contents (Elt Ideal)) (x4 : (⟨S64x32, .f32⟩ : BufTy).Contents (Elt Ideal))
    (x7 : (⟨S64x64, .f32⟩ : BufTy).Contents (Elt Ideal)) (x8 : (⟨S64, .f32⟩ : BufTy).Contents (Elt Ideal)) (x9 : (⟨S1x64, .f32⟩ : BufTy).Contents (Elt Ideal)) (x10 : (⟨S1, .f32⟩ : BufTy).Contents (Elt Ideal))
    (x11 : (⟨S1x64, .f32⟩ : BufTy).Contents (Elt Ideal)) (x12 : (⟨S1, .f32⟩ : BufTy).Contents (Elt Ideal))
    (x13 : (⟨S1x32, .f32⟩ : BufTy).Contents (Elt Ideal)) (x14 : (⟨S1, .f32⟩ : BufTy).Contents (Elt Ideal)) (x15 : (⟨S1x32, .f32⟩ : BufTy).Contents (Elt Ideal)) (x16 : (⟨S1, .f32⟩ : BufTy).Contents (Elt Ideal))
    (x17 x18 : (⟨S4x8x64, .f32⟩ : BufTy).Contents (Elt Ideal)) (x19 : (⟨S4, .f32⟩ : BufTy).Contents (Elt Ideal)) (b : Fin 65536)
    (hsur : val_main_v27 (F := Ideal) x0 x2 x3 x13 x14 x15 x16 (ix2 b (0 : Fin 1)) = surprise W x)
    (hs2 : ∀ f : Fin 64, val_main_v30 (F := Ideal) x0 x2 x3 x4 (ix2 b f) = s2 W x f)
    (hgate : ∀ (l : Fin 4) (r : Fin 8),
      val_main_v73 (F := Ideal) x0 x2 x3 x4 x7 x8 x9 x10 x11 x12 x18 x19 (ix3 b l r) = gate W x l r)
    (hH : ∀ (l : Fin 4) (r : Fin 8) (f : Fin 64), x1 (ix5 b l r (featHi f) (featLo f)) = H l r f)
    (hdg : ∀ (l : Fin 4) (r : Fin 8) (f : Fin 64), Ideal.logistic (x17 (ix3 l r f)) = W.dg l r f)
    (l : Fin 4) (r : Fin 8) (f : Fin 64) :
    val_main_v91 (F := Ideal) x0 x1 x2 x3 x4 x7 x8 x9 x10 x11 x12 x13 x14 x15 x16 x17 x18 x19 (ix4 b l r f)
      = H l r f * W.dg l r f + gate W x l r * write W x f := by
  rw [val_main_v91_apply, val_main_v86_apply, val_main_v90_apply, val_main_v80_apply, val_main_v85_apply,
    val_main_v84_apply, val_main_v88_apply, val_main_v87_apply, val_main_v89_apply, val_main_v83_apply]
  have e1 : idx_main_v84 (idx_main_v85 (ix4 b l r f)) = ix3 l r f :=
    funext fun a => Fin.ext (by match a with | ⟨0, _⟩ => rfl | ⟨1, _⟩ => rfl | ⟨2, _⟩ => rfl)
  have e2 : idx_main_v87 (idx_main_v88 (ix4 b l r f)) = ix3 b l r :=
    funext fun a => Fin.ext (by match a with | ⟨0, _⟩ => rfl | ⟨1, _⟩ => rfl | ⟨2, _⟩ => rfl)
  have e3 : idx_main_v83 (idx_main_v89 (ix4 b l r f)) = ix2 b f :=
    funext fun a => Fin.ext (by match a with | ⟨0, _⟩ => rfl | ⟨1, _⟩ => rfl)
  rw [idx_v80_eq, e1, e2, e3, dg_apply, hdg, hH, hgate, write_apply W x x0 x2 x3 x4 x13 x14 x15 x16 b hsur hs2]
  rfl

/-- The mean over the four layers at `(b, r, f)`: the sum from the zero pattern, divided by the pattern of four. -/
theorem mean_apply (x0 : (⟨S65536x8, .f32⟩ : BufTy).Contents (Elt Ideal)) (x1 : (⟨S65536x4x8x16x4, .f32⟩ : BufTy).Contents (Elt Ideal)) (x2 : (⟨S32x8, .f32⟩ : BufTy).Contents (Elt Ideal)) (x3 : (⟨S32, .f32⟩ : BufTy).Contents (Elt Ideal)) (x4 : (⟨S64x32, .f32⟩ : BufTy).Contents (Elt Ideal))
    (x7 : (⟨S64x64, .f32⟩ : BufTy).Contents (Elt Ideal)) (x8 : (⟨S64, .f32⟩ : BufTy).Contents (Elt Ideal)) (x9 : (⟨S1x64, .f32⟩ : BufTy).Contents (Elt Ideal)) (x10 : (⟨S1, .f32⟩ : BufTy).Contents (Elt Ideal))
    (x11 : (⟨S1x64, .f32⟩ : BufTy).Contents (Elt Ideal)) (x12 : (⟨S1, .f32⟩ : BufTy).Contents (Elt Ideal))
    (x13 : (⟨S1x32, .f32⟩ : BufTy).Contents (Elt Ideal)) (x14 : (⟨S1, .f32⟩ : BufTy).Contents (Elt Ideal)) (x15 : (⟨S1x32, .f32⟩ : BufTy).Contents (Elt Ideal)) (x16 : (⟨S1, .f32⟩ : BufTy).Contents (Elt Ideal))
    (x17 x18 : (⟨S4x8x64, .f32⟩ : BufTy).Contents (Elt Ideal)) (x19 : (⟨S4, .f32⟩ : BufTy).Contents (Elt Ideal)) (b : Fin 65536)
    (hsur : val_main_v27 (F := Ideal) x0 x2 x3 x13 x14 x15 x16 (ix2 b (0 : Fin 1)) = surprise W x)
    (hs2 : ∀ f : Fin 64, val_main_v30 (F := Ideal) x0 x2 x3 x4 (ix2 b f) = s2 W x f)
    (hgate : ∀ (l : Fin 4) (r : Fin 8),
      val_main_v73 (F := Ideal) x0 x2 x3 x4 x7 x8 x9 x10 x11 x12 x18 x19 (ix3 b l r) = gate W x l r)
    (hH : ∀ (l : Fin 4) (r : Fin 8) (f : Fin 64), x1 (ix5 b l r (featHi f) (featLo f)) = H l r f)
    (hdg : ∀ (l : Fin 4) (r : Fin 8) (f : Fin 64), Ideal.logistic (x17 (ix3 l r f)) = W.dg l r f)
    (r : Fin 8) (f : Fin 64) :
    val_main_v94 (F := Ideal) x0 x1 x2 x3 x4 x7 x8 x9 x10 x11 x12 x13 x14 x15 x16 x17 x18 x19 (ix3 b r f) = readWhole W x H r f := by
  rw [val_main_v94_apply, val_main_v92_apply, val_main_v93_apply]
  unfold readWhole
  show Ideal.div (zero32 + ∑ k : Fin 4, _) four32 = _
  congr 2
  refine Finset.sum_congr rfl fun k _ => ?_
  have e : idx_main_v92 (ix3 b r f) k = ix4 b k r f :=
    funext fun a => Fin.ext (by match a with | ⟨0, _⟩ => rfl | ⟨1, _⟩ => rfl | ⟨2, _⟩ => rfl | ⟨3, _⟩ => rfl)
  rw [e]
  exact slab_apply W x H x0 x1 x2 x3 x4 x7 x8 x9 x10 x11 x12 x13 x14 x15 x16 x17 x18 x19 b hsur hs2 hgate hH hdg k r f

/-- The flattened mean at `(b, k)`, `k = slot·64 + feature`. -/
theorem flat_apply (x0 : (⟨S65536x8, .f32⟩ : BufTy).Contents (Elt Ideal)) (x1 : (⟨S65536x4x8x16x4, .f32⟩ : BufTy).Contents (Elt Ideal)) (x2 : (⟨S32x8, .f32⟩ : BufTy).Contents (Elt Ideal)) (x3 : (⟨S32, .f32⟩ : BufTy).Contents (Elt Ideal)) (x4 : (⟨S64x32, .f32⟩ : BufTy).Contents (Elt Ideal))
    (x7 : (⟨S64x64, .f32⟩ : BufTy).Contents (Elt Ideal)) (x8 : (⟨S64, .f32⟩ : BufTy).Contents (Elt Ideal)) (x9 : (⟨S1x64, .f32⟩ : BufTy).Contents (Elt Ideal)) (x10 : (⟨S1, .f32⟩ : BufTy).Contents (Elt Ideal))
    (x11 : (⟨S1x64, .f32⟩ : BufTy).Contents (Elt Ideal)) (x12 : (⟨S1, .f32⟩ : BufTy).Contents (Elt Ideal))
    (x13 : (⟨S1x32, .f32⟩ : BufTy).Contents (Elt Ideal)) (x14 : (⟨S1, .f32⟩ : BufTy).Contents (Elt Ideal)) (x15 : (⟨S1x32, .f32⟩ : BufTy).Contents (Elt Ideal)) (x16 : (⟨S1, .f32⟩ : BufTy).Contents (Elt Ideal))
    (x17 x18 : (⟨S4x8x64, .f32⟩ : BufTy).Contents (Elt Ideal)) (x19 : (⟨S4, .f32⟩ : BufTy).Contents (Elt Ideal)) (b : Fin 65536)
    (hsur : val_main_v27 (F := Ideal) x0 x2 x3 x13 x14 x15 x16 (ix2 b (0 : Fin 1)) = surprise W x)
    (hs2 : ∀ f : Fin 64, val_main_v30 (F := Ideal) x0 x2 x3 x4 (ix2 b f) = s2 W x f)
    (hgate : ∀ (l : Fin 4) (r : Fin 8),
      val_main_v73 (F := Ideal) x0 x2 x3 x4 x7 x8 x9 x10 x11 x12 x18 x19 (ix3 b l r) = gate W x l r)
    (hH : ∀ (l : Fin 4) (r : Fin 8) (f : Fin 64), x1 (ix5 b l r (featHi f) (featLo f)) = H l r f)
    (hdg : ∀ (l : Fin 4) (r : Fin 8) (f : Fin 64), Ideal.logistic (x17 (ix3 l r f)) = W.dg l r f)
    (k : Fin 512) :
    val_main_v95 (F := Ideal) x0 x1 x2 x3 x4 x7 x8 x9 x10 x11 x12 x13 x14 x15 x16 x17 x18 x19 (ix2 b k) = readWhole W x H (slotOf k) (featOf k) := by
  rw [val_main_v95_apply]
  have e : idx_main_v95 (ix2 b k) = ix3 b (slotOf k) (featOf k) := by
    have hb := b.isLt; have hk := k.isLt
    funext a
    apply Fin.ext
    match a with
    | ⟨0, _⟩ => show (b.val * 512 + k.val) / 512 = b.val; omega
    | ⟨1, _⟩ => show (b.val * 512 + k.val) / 64 % 8 = k.val / 64; omega
    | ⟨2, _⟩ => show (b.val * 512 + k.val) % 64 = k.val % 64; omega
  rw [e]
  exact mean_apply W x H x0 x1 x2 x3 x4 x7 x8 x9 x10 x11 x12 x13 x14 x15 x16 x17 x18 x19 b hsur hs2 hgate hH hdg (slotOf k) (featOf k)

/-- The readout at row `b`, output `o`. -/
theorem out_apply (x0 : (⟨S65536x8, .f32⟩ : BufTy).Contents (Elt Ideal)) (x1 : (⟨S65536x4x8x16x4, .f32⟩ : BufTy).Contents (Elt Ideal)) (x2 : (⟨S32x8, .f32⟩ : BufTy).Contents (Elt Ideal)) (x3 : (⟨S32, .f32⟩ : BufTy).Contents (Elt Ideal))
    (x4 : (⟨S64x32, .f32⟩ : BufTy).Contents (Elt Ideal)) (x5 : (⟨S8x512, .f32⟩ : BufTy).Contents (Elt Ideal)) (x6 : (⟨S8, .f32⟩ : BufTy).Contents (Elt Ideal))
    (x7 : (⟨S64x64, .f32⟩ : BufTy).Contents (Elt Ideal)) (x8 : (⟨S64, .f32⟩ : BufTy).Contents (Elt Ideal)) (x9 : (⟨S1x64, .f32⟩ : BufTy).Contents (Elt Ideal)) (x10 : (⟨S1, .f32⟩ : BufTy).Contents (Elt Ideal))
    (x11 : (⟨S1x64, .f32⟩ : BufTy).Contents (Elt Ideal)) (x12 : (⟨S1, .f32⟩ : BufTy).Contents (Elt Ideal)) (x13 : (⟨S1x32, .f32⟩ : BufTy).Contents (Elt Ideal)) (x14 : (⟨S1, .f32⟩ : BufTy).Contents (Elt Ideal))
    (x15 : (⟨S1x32, .f32⟩ : BufTy).Contents (Elt Ideal)) (x16 : (⟨S1, .f32⟩ : BufTy).Contents (Elt Ideal)) (x17 x18 : (⟨S4x8x64, .f32⟩ : BufTy).Contents (Elt Ideal)) (x19 : (⟨S4, .f32⟩ : BufTy).Contents (Elt Ideal)) (b : Fin 65536)
    (hsur : val_main_v27 (F := Ideal) x0 x2 x3 x13 x14 x15 x16 (ix2 b (0 : Fin 1)) = surprise W x)
    (hs2 : ∀ f : Fin 64, val_main_v30 (F := Ideal) x0 x2 x3 x4 (ix2 b f) = s2 W x f)
    (hgate : ∀ (l : Fin 4) (r : Fin 8),
      val_main_v73 (F := Ideal) x0 x2 x3 x4 x7 x8 x9 x10 x11 x12 x18 x19 (ix3 b l r) = gate W x l r)
    (hH : ∀ (l : Fin 4) (r : Fin 8) (f : Fin 64), x1 (ix5 b l r (featHi f) (featLo f)) = H l r f)
    (hdg : ∀ (l : Fin 4) (r : Fin 8) (f : Fin 64), Ideal.logistic (x17 (ix3 l r f)) = W.dg l r f)
    (hWread : ∀ (o : Fin 8) (k : Fin 512), x5 (ix2 o k) = W.Wread o k) (hbread : ∀ o : Fin 8, x6 (ix1 o) = W.bread o)
    (o : Fin 8) :
    val_main_v100 (F := Ideal) x0 x1 x2 x3 x4 x5 x6 x7 x8 x9 x10 x11 x12 x13 x14 x15 x16 x17 x18 x19 (ix2 b o)
      = outWhole W x H o := by
  rw [val_main_v100_apply, val_main_v97_apply, val_main_v99_apply, val_main_v98_apply]
  unfold outWhole
  show (∑ k : Fin 512, _) + _ = _
  refine congrArg₂ (· + ·) ?_ ?_
  · refine Finset.sum_congr rfl fun k _ => ?_
    rw [val_main_v96_apply]
    have e1 : lidx_main_v97 (ix2 b o) k = ix2 b k :=
      funext fun a => Fin.ext (by match a with | ⟨0, _⟩ => rfl | ⟨1, _⟩ => rfl)
    have e2 : idx_main_v96 (ridx_main_v97 (ix2 b o) k) = ix2 o k :=
      funext fun a => Fin.ext (by match a with | ⟨0, _⟩ => rfl | ⟨1, _⟩ => rfl)
    rw [e1, e2, hWread, flat_apply W x H x0 x1 x2 x3 x4 x7 x8 x9 x10 x11 x12 x13 x14 x15 x16 x17 x18 x19 b hsur hs2 hgate hH hdg k]
  · have e3 : idx_main_v98 (idx_main_v99 (ix2 b o)) = ix1 o :=
      funext fun a => Fin.ext (by match a with | ⟨0, _⟩ => rfl)
    rw [e3, hbread]

end Cert.Memory.RefStages

end
-- ==== Proof.RefRows.lean ====
/-
  The reference's result, as a function of the twenty argument arrays, is `result` of them: at row `b`, output `o` it
  is the whole-form readout of the gated memory read of row `b`. The stages are read one after the other — the latent,
  the surprise, the working state, the governor and its heads, the halting gate, the gate, the updated slab's mean and
  the readout —, each from the ones before it.
-/
import proofs.«136379_j32899449488193_1_alg».proof.Proof.RefStagesA
import proofs.«136379_j32899449488193_1_alg».proof.Proof.RefStagesB
import proofs.«136379_j32899449488193_1_alg».proof.Proof.RefStagesC
import proofs.«136379_j32899449488193_1_alg».proof.Proof.Arrays

noncomputable section

open scoped BigOperators

namespace Cert.Memory.RefRows

open Cert.ReferenceIdeal Cert.ReferenceIdeal.Read Idealize.ShloMosaic Idealize.ShloMosaic.ValueIdx Cert.Memory

/-- The reference's last stage is the result array. -/
theorem ref_eq_result (x0 : (⟨S65536x8, .f32⟩ : BufTy).Contents (Elt Ideal)) (x1 : (⟨S65536x4x8x16x4, .f32⟩ : BufTy).Contents (Elt Ideal)) (x2 : (⟨S32x8, .f32⟩ : BufTy).Contents (Elt Ideal)) (x3 : (⟨S32, .f32⟩ : BufTy).Contents (Elt Ideal))
    (x4 : (⟨S64x32, .f32⟩ : BufTy).Contents (Elt Ideal)) (x5 : (⟨S8x512, .f32⟩ : BufTy).Contents (Elt Ideal)) (x6 : (⟨S8, .f32⟩ : BufTy).Contents (Elt Ideal))
    (x7 : (⟨S64x64, .f32⟩ : BufTy).Contents (Elt Ideal)) (x8 : (⟨S64, .f32⟩ : BufTy).Contents (Elt Ideal)) (x9 : (⟨S1x64, .f32⟩ : BufTy).Contents (Elt Ideal)) (x10 : (⟨S1, .f32⟩ : BufTy).Contents (Elt Ideal))
    (x11 : (⟨S1x64, .f32⟩ : BufTy).Contents (Elt Ideal)) (x12 : (⟨S1, .f32⟩ : BufTy).Contents (Elt Ideal)) (x13 : (⟨S1x32, .f32⟩ : BufTy).Contents (Elt Ideal)) (x14 : (⟨S1, .f32⟩ : BufTy).Contents (Elt Ideal))
    (x15 : (⟨S1x32, .f32⟩ : BufTy).Contents (Elt Ideal)) (x16 : (⟨S1, .f32⟩ : BufTy).Contents (Elt Ideal)) (x17 x18 : (⟨S4x8x64, .f32⟩ : BufTy).Contents (Elt Ideal)) (x19 : (⟨S4, .f32⟩ : BufTy).Contents (Elt Ideal)) :
    val_main_v100 (F := Ideal) x0 x1 x2 x3 x4 x5 x6 x7 x8 x9 x10 x11 x12 x13 x14 x15 x16 x17 x18 x19
      = result x0 x1 x2 x3 x4 x5 x6 x7 x8 x9 x10 x11 x12 x13 x14 x15 x16 x17 x18 x19 := by
  funext i
  obtain ⟨b, o, rfl⟩ : ∃ (b : Fin 65536) (o : Fin 8), i = ix2 b o := ⟨i 0, i 1, eq_ix2 i⟩
  rw [result_apply]
  have hs2 : ∀ f : Fin 64, val_main_v30 (F := Ideal) x0 x2 x3 x4 (ix2 b f)
      = s2 (arrWeights x2 x3 x4 x5 x6 x7 x8 x9 x10 x11 x12 x13 x14 x15 x16 x17 x18 x19) (xRow x0 b) f := fun f =>
    RefStages.s2_apply _ _ x0 x2 x3 x4 b (fun _ => rfl) (fun _ _ => rfl) (fun _ => rfl) (fun _ _ => rfl) f
  have hhg : ∀ n : Fin 64, val_main_v36 (F := Ideal) x0 x2 x3 x4 x7 x8 (ix2 b n)
      = hg (arrWeights x2 x3 x4 x5 x6 x7 x8 x9 x10 x11 x12 x13 x14 x15 x16 x17 x18 x19) (xRow x0 b) n := fun n =>
    RefStages.hg_apply _ _ x0 x2 x3 x4 x7 x8 b hs2 (fun _ _ => rfl) (fun _ => rfl) n
  exact RefStages.out_apply _ _ _ x0 x1 x2 x3 x4 x5 x6 x7 x8 x9 x10 x11 x12 x13 x14 x15 x16 x17 x18 x19 b
    (RefStages.surprise_apply _ _ x0 x2 x3 x13 x14 x15 x16 b (fun _ => rfl) (fun _ _ => rfl) (fun _ => rfl) (fun _ => rfl) rfl
      (fun _ => rfl) rfl)
    hs2
    (fun l r => RefStages.gate_apply _ _ x0 x2 x3 x4 x7 x8 x9 x10 x11 x12 x18 x19 b
      (RefStages.eng_apply _ _ x0 x2 x3 x4 x7 x8 x9 x10 b hhg (fun _ => rfl) rfl)
      (RefStages.imp_apply _ _ x0 x2 x3 x4 x7 x8 x11 x12 b hhg (fun _ => rfl) rfl)
      (fun l r => RefStages.halt_apply _ _ x0 x2 x3 x4 x18 x19 b hs2 (fun _ _ _ => rfl) (fun _ => rfl) l r) l r)
    (fun _ _ _ => rfl) (fun _ _ _ => rfl) (fun _ _ => rfl) (fun _ => rfl) o

end Cert.Memory.RefRows

end
-- ==== Proof.lean ====
/-
  The kernel computes the gated memory read with the layer average split — the mean of the decayed slab plus the write
  times the mean gate — where the reference averages the whole updated slab. On the extended reals the two agree because
  every gate value is a product of sigmoid values, hence nonnegative, so the write factors out of the sum of gated
  writes whatever it is (Law). The kernel's run ends with its output array at `result` of the argument arrays (Blocks:
  each grid point writes one tile of 1024 batch rows, and the tiles cover the array); the reference's run ends at its
  composed term of the arguments, which read index by index is the same `result` (RefRows). The frames of the two
  kernel programs are their generated certificates; the reference's frame is its generated run with the result dropped;
  the idealization rewrote no operation, so there is nothing to preserve.
-/
import proofs.«136379_j32899449488193_1_alg».proof.Defs
import proofs.«136379_j32899449488193_1_alg».proof.Proof.Gen.Kernel
import proofs.«136379_j32899449488193_1_alg».proof.Proof.Gen.Kernel.Skeleton
import proofs.«136379_j32899449488193_1_alg».proof.Proof.Gen.Kernel.Launch
import proofs.«136379_j32899449488193_1_alg».proof.Proof.Gen.Kernel.Points
import proofs.«136379_j32899449488193_1_alg».proof.Proof.Gen.Kernel.Frame
import proofs.«136379_j32899449488193_1_alg».proof.Proof.Gen.KernelIdeal
import proofs.«136379_j32899449488193_1_alg».proof.Proof.Gen.KernelIdeal.Skeleton
import proofs.«136379_j32899449488193_1_alg».proof.Proof.Gen.KernelIdeal.Launch
import proofs.«136379_j32899449488193_1_alg».proof.Proof.Gen.KernelIdeal.Points
import proofs.«136379_j32899449488193_1_alg».proof.Proof.Gen.KernelIdeal.Frame
import proofs.«136379_j32899449488193_1_alg».proof.Proof.Gen.ReferenceIdeal
import proofs.«136379_j32899449488193_1_alg».proof.Proof.Gen.Pre_finite_inputs
import proofs.«136379_j32899449488193_1_alg».proof.Proof.Gen.KernelIdeal.Value
import proofs.«136379_j32899449488193_1_alg».proof.Proof.Gen.ReferenceIdeal.Run
import proofs.«136379_j32899449488193_1_alg».proof.Proof.Gen.ReferenceIdeal.Read
import proofs.«136379_j32899449488193_1_alg».proof.Proof.Blocks
import proofs.«136379_j32899449488193_1_alg».proof.Proof.RefRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at `result` of arguments that agree. -/
theorem algebraic : Cert.algebraic_KernelIdeal_ReferenceIdeal := by
  intro m ρ m' ρ' _ hagree
  refine ⟨fun c => Cert.Memory.Blocks.resultOf m c, Cert.Memory.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, Cert.Memory.RefRows.ref_eq_result]
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
